-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S16x40 .f32) (main_arg7 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S16x40 .f32 := Host.absf main_arg6
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x16 .f32) (main_arg3 : FVec F S64x16 .f32) (main_arg4 : FVec F S16 .f32) (main_arg5 : FVec F S16x40 .f32) (main_arg6 : FVec F S16x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S100000x16 : Shape := ⟨2, ![100000, 16]⟩
abbrev S10000x64 : Shape := ⟨2, ![10000, 64]⟩
abbrev S10000x16 : Shape := ⟨2, ![10000, 16]⟩
abbrev S1x16 : Shape := ⟨2, ![1, 16]⟩
abbrev S1200000x16 : Shape := ⟨2, ![1200000, 16]⟩
abbrev S100000x40 : Shape := ⟨2, ![100000, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 58
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x40, .f32⟩
  | .hbm, ⟨6, _⟩ => ⟨S16x40, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x16, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x16, .f32⟩
  | .hbm, ⟨50, _⟩ => ⟨S_, .f32⟩
  | .hbm, ⟨51, _⟩ => ⟨S100000x16, .f32⟩
  | .hbm, ⟨52, _⟩ => ⟨S1200000x1, .i32⟩
  | .hbm, ⟨53, _⟩ => ⟨S100000x16, .f32⟩
  | .hbm, ⟨54, _⟩ => ⟨S100000x1, .f32⟩
  | .hbm, ⟨55, _⟩ => ⟨S100000x16, .f32⟩
  | .hbm, ⟨56, _⟩ => ⟨S100000x16, .f32⟩
  | .hbm, ⟨57, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x16, .f32⟩
  | .local _ .vmem, ⟨5, _⟩ => ⟨S64x16, .f32⟩
  | .local _ .vmem, ⟨6, _⟩ => ⟨S16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x40, .f32⟩
  | .local _ .vmem, ⟨14, _⟩ => ⟨S16x40, .f32⟩
  | .local _ .vmem, ⟨15, _⟩ => ⟨S40, .f32⟩
  | .local _ .vmem, ⟨16, _⟩ => ⟨S10000x40, .f32⟩
  | .local _ .vmem, ⟨17, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x16_S10000x16_1_0_0_1_n_n_wf : DotDims.WF S10000x64 S64x16 S10000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x40.size a ≤ S100000x40.size a
  hwx1_5 : ∀ i : grid1.Coords, EltTy.bits .f32 = 32 ∨ (Rect.block (s := S100000x40) S10000x40.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S100000x16 : Shape := ⟨2, ![100000, 16]⟩
abbrev S1x16 : Shape := ⟨2, ![1, 16]⟩
abbrev S1200000x16 : Shape := ⟨2, ![1200000, 16]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x40, .f32⟩
  | .hbm, ⟨6, _⟩ => ⟨S16x40, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1200000x64, .f32⟩
  | .hbm, ⟨27, _⟩ => ⟨S_, .f32⟩
  | .hbm, ⟨28, _⟩ => ⟨S100000x64, .f32⟩
  | .hbm, ⟨29, _⟩ => ⟨S1200000x1, .i32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x16, .f32⟩
  | .hbm, ⟨38, _⟩ => ⟨S100000x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S1200000, .f32⟩
  | .hbm, ⟨48, _⟩ => ⟨S_, .f32⟩
  | .hbm, ⟨49, _⟩ => ⟨S100000, .f32⟩
  | .hbm, ⟨50, _⟩ => ⟨S1200000x1, .i32⟩
  | .hbm, ⟨51, _⟩ => ⟨S100000, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x16, .f32⟩
  | .hbm, ⟨61, _⟩ => ⟨S_, .f32⟩
  | .hbm, ⟨62, _⟩ => ⟨S100000x16, .f32⟩
  | .hbm, ⟨63, _⟩ => ⟨S1200000x1, .i32⟩
  | .hbm, ⟨64, _⟩ => ⟨S100000x16, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x16, .f32⟩
  | .hbm, ⟨70, _⟩ => ⟨S100000x16, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x16_S100000x16_1_0_0_1_n_n_wf : DotDims.WF S100000x64 S64x16 S100000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  dot_S100000x16_S16x40_S100000x40_1_0_0_1_n_n_wf : DotDims.WF S100000x16 S16x40 S100000x40 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.Spec.lean ====
/-
  The two layers of the graph network as functions of their operand arrays, entry by entry, at the
  ideal instance (floats are the extended reals, every operation exact).

  A layer takes a feature array `x : [M, K]`, the neighbourhood means `a : [M, K]`, two weight
  matrices `ws, wn : [K, N]` and a bias `b : [N]`. Its linear part at row `p`, column `q` is
      lin[p, q] = (∑ k, x[p, k] * ws[k, q]) + (∑ k, a[p, k] * wn[k, q]) + b[q],
  the two products summed in that order and the bias added last, as both programs do.
  The first layer clips it at zero from below; the second takes the row's log-softmax:
  with `mx[p] = max over q of lin[p, q]` (from -∞) and `z[p, q] = lin[p, q] - mx[p]`,
      out[p, q] = z[p, q] - log (∑ q', exp z[p, q']).

  Everything here is stated for ANY number of rows `M`, because row `p` of the result reads row `p`
  of `x` and of `a` and nothing else of them: a block of rows of the result is the same function of
  the matching block of rows of the operands (`lin_rows`). That is what lets a kernel that computes
  ten thousand rows at a time meet a reference that computes all hundred thousand at once.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

variable {M K N : Nat}

/-- The linear part of a layer at row `p`, column `q`. -/
def lin (x a : (⟨2, ![M, K]⟩ : Shape).Idx → EReal) (ws wn : (⟨2, ![K, N]⟩ : Shape).Idx → EReal)
    (b : (⟨1, ![N]⟩ : Shape).Idx → EReal) (p : Fin M) (q : Fin N) : EReal :=
  (∑ k : Fin K, x (ix2 p k) * ws (ix2 k q)) + (∑ k : Fin K, a (ix2 p k) * wn (ix2 k q)) + b (ix1 q)

/-- Row `p` of the linear part reads row `p` of the two row-indexed operands only: if a block's
    rows are the array's rows `r p`, the block's linear part at `p` is the array's at `r p`. -/
theorem lin_rows {M' : Nat} (r : Fin M → Fin M')
    (x a : (⟨2, ![M, K]⟩ : Shape).Idx → EReal) (X A : (⟨2, ![M', K]⟩ : Shape).Idx → EReal)
    (ws wn : (⟨2, ![K, N]⟩ : Shape).Idx → EReal) (b : (⟨1, ![N]⟩ : Shape).Idx → EReal)
    (hx : ∀ p k, x (ix2 p k) = X (ix2 (r p) k)) (ha : ∀ p k, a (ix2 p k) = A (ix2 (r p) k))
    (p : Fin M) (q : Fin N) : lin x a ws wn b p q = lin X A ws wn b (r p) q := by
  unfold lin
  simp only [hx, ha]

/-- The first layer: the linear part clipped at zero from below. -/
def hid (x a : (⟨2, ![M, K]⟩ : Shape).Idx → EReal) (ws wn : (⟨2, ![K, N]⟩ : Shape).Idx → EReal)
    (b : (⟨1, ![N]⟩ : Shape).Idx → EReal) (p : Fin M) (q : Fin N) : EReal :=
  max (lin x a ws wn b p q) 0

/-- The log-softmax of a row `o p`: each entry less the row's maximum, less the logarithm of the
    sum of the exponentials of those differences. -/
def lsm (o : Fin M → Fin N → EReal) (p : Fin M) (q : Fin N) : EReal :=
  (o p q - Finset.univ.fold max ⊥ (o p)) -
    Ideal.log (∑ k : Fin N, Ideal.exp (o p k - Finset.univ.fold max ⊥ (o p)))

/-- The log-softmax of a row depends on that row only. -/
theorem lsm_rows {M' : Nat} (r : Fin M → Fin M') (o : Fin M → Fin N → EReal) (O : Fin M' → Fin N → EReal)
    (h : ∀ p q, o p q = O (r p) q) (p : Fin M) (q : Fin N) : lsm o p q = lsm O (r p) q := by
  have hrow : o p = O (r p) := funext (h p)
  unfold lsm
  rw [hrow]

/-- Multiplying by the reciprocal of a divisor that is at least one is dividing by it, on every
    extended real, infinite ones included: such a divisor is not zero, and off zero the quotient
    IS the product with the inverse. This is the one law that joins the two programs: one scales
    the neighbourhood sums by `1 / max (deg, 1)`, the other divides them by `max (deg, 1)`. -/
theorem mul_recip_eq_div (s d : EReal) (hd : 1 ≤ d) : s * Ideal.div 1 d = Ideal.div s d := by
  have h0 : d ≠ 0 := fun e => by rw [e] at hd; exact absurd hd (by norm_num)
  unfold Ideal.div
  rw [if_neg h0, if_neg h0, one_mul]

end Cert.Sage

end
-- ==== Proof.RefShared.lean ====
/-
  The pieces the two programs share, and the one place they differ.

  Both programs count each node's incoming edges (`deg`), take `d = max (deg, 1)`, sum the source
  rows of a feature array onto the destination nodes, and scale the sums by `1 / d`. They differ in
  how they scale: the reference DIVIDES the sums by `d` laid out as a column and repeated along the
  row; the kernel's program forms the reciprocal `1 / d` first, lays THAT out the same way, and
  MULTIPLIES. Since `d` is at least one it is not zero, and off zero the quotient is the product
  with the inverse on every extended real; so the two neighbourhood means are one array.

  Here the shared pieces are named as functions of plain operands (so that each program's own
  text can be recognised as them), the reference's stages are identified with them, and the two
  spellings of the mean are joined, entry by entry.
-/
import proofs.«153827_j40518721470745_1_alg».proof.Proof.RefRead
import proofs.«153827_j40518721470745_1_alg».proof.Proof.Spec
import Idealize.ShloMosaic.Lib.IdealHost

noncomputable section

namespace Cert.ReferenceIdeal.Shared

open Cert.ReferenceIdeal Cert.ReferenceIdeal.Gen Cert.ReferenceIdeal.ReadP
open Idealize.ShloMosaic Idealize.ShloMosaic.TcCoe Idealize.ShloMosaic.ValueIdx Idealize.SL.Sem

section AnyInstance
variable {F : FTy → Type} [FloatOps F]

/-- The reciprocal of `max (deg, 1)`, node by node. -/
def recip (x1 : (⟨S2x1200000, .i32⟩ : BufTy).Contents (Elt F)) : (⟨S100000, .f32⟩ : BufTy).Contents (Elt F) :=
  Host.divf (val_main_v18 (F := F)) (val_main_v19 (F := F) x1)

/-- A per-node array laid out as a column and repeated along 64 columns. -/
def rep64 (y : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 y)

/-- A per-node array laid out as a column and repeated along 16 columns. -/
def rep16 (y : (⟨S100000, .f32⟩ : BufTy).Contents (Elt F)) : (⟨S100000x16, .f32⟩ : BufTy).Contents (Elt F) :=
  broadcastInDim S100000x16 ![0, 1] bcast_S100000x1_S100000x16_0_1 (broadcastInDim S100000x1 ![0] bcast_S100000_S100000x1_0 y)

/-- The source indices with a negative index counted from the end, laid out as a column. -/
def wrap (v1 : (⟨S1200000, .i32⟩ : BufTy).Contents (Elt F)) : (⟨S1200000x1, .i32⟩ : BufTy).Contents (Elt F) :=
  broadcastInDim S1200000x1 ![0] bcast_S1200000_S1200000x1_0
    (select (cmpi .slt v1 (broadcastInDim S1200000 ![] bcast_S_S1200000 (constantI S_ 32 0#32)))
      (addi v1 (broadcastInDim S1200000 ![] bcast_S_S1200000 (constantI S_ 32 100000#32))) v1)

/-- The sum, onto each destination node, of the source rows of a 16-column array `h`: the second layer's
    neighbourhood sum as a function of ANY hidden layer and the two index lists. -/
def seg16 (h : (⟨S100000x16, .f32⟩ : BufTy).Contents (Elt F)) (v1 v3 : (⟨S1200000, .i32⟩ : BufTy).Contents (Elt F)) :
    (⟨S100000x16, .f32⟩ : BufTy).Contents (Elt F) :=
  Host.scatterAdd scatter_S100000x16_S1200000x1_S1200000x16_1_0_0_1
    (broadcastInDim S100000x16 ![] bcast_S_S100000x16 (constant S_ .f32 0x00000000#32))
    (broadcastInDim S1200000x1 ![0] bcast_S1200000_S1200000x1_0 v3)
    (Host.gather gather_S100000x16_S1200000x1_S1200000x16_1_0_n_n_0_1_116 h (wrap v1))

/-- The first neighbourhood mean as the kernel's program spells it: the sums times the repeated reciprocal. -/
def mean1K (x0 : (⟨S100000x64, .f32⟩ : BufTy).Contents (Elt F)) (x1 : (⟨S2x1200000, .i32⟩ : BufTy).Contents (Elt F)) :
    (⟨S100000x64, .f32⟩ : BufTy).Contents (Elt F) :=
  mulf (val_main_v17 (F := F) x0 x1) (rep64 (recip x1))

/-- The second, the same way, over any hidden layer, index lists and reciprocal. -/
def mean2K (h : (⟨S100000x16, .f32⟩ : BufTy).Contents (Elt F)) (v1 v3 : (⟨S1200000, .i32⟩ : BufTy).Contents (Elt F))
    (r : (⟨S100000, .f32⟩ : BufTy).Contents (Elt F)) : (⟨S100000x16, .f32⟩ : BufTy).Contents (Elt F) :=
  mulf (seg16 h v1 v3) (rep16 r)

/-! ### The reference's own stages are these -/

theorem v21_rep (x1 : (⟨S2x1200000, .i32⟩ : BufTy).Contents (Elt F)) : val_main_v21 (F := F) x1 = rep64 (val_main_v19 (F := F) x1) := rfl
theorem v47_rep (x1 : (⟨S2x1200000, .i32⟩ : BufTy).Contents (Elt F)) : val_main_v47 (F := F) x1 = rep16 (val_main_v45 (F := F) x1) := rfl
/-- The degree count is formed twice; the two are one array. -/
theorem v45_v19 (x1 : (⟨S2x1200000, .i32⟩ : BufTy).Contents (Elt F)) : val_main_v45 (F := F) x1 = val_main_v19 (F := F) x1 := rfl
theorem v43_seg (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F)) :
    val_main_v43 (F := F) x0 x1 x2 x3 x4
      = seg16 (val_main_v29 (F := F) x0 x1 x2 x3 x4) (val_main_v1 (F := F) x1) (val_main_v3 (F := F) x1) := rfl

/-- The kernel's spelling of the first mean, in the shared pieces. -/
theorem mean1K_def (x0 : (⟨S100000x64, .f32⟩ : BufTy).Contents (Elt F)) (x1 : (⟨S2x1200000, .i32⟩ : BufTy).Contents (Elt F)) :
    mean1K (F := F) x0 x1
      = mulf (val_main_v17 (F := F) x0 x1) (rep64 (Host.divf (val_main_v18 (F := F)) (val_main_v19 (F := F) x1))) := rfl
/-- The reference's spelling of the first mean, in the shared pieces. -/
theorem v22_def (x0 : (⟨S100000x64, .f32⟩ : BufTy).Contents (Elt F)) (x1 : (⟨S2x1200000, .i32⟩ : BufTy).Contents (Elt F)) :
    val_main_v22 (F := F) x0 x1 = Host.divf (val_main_v17 (F := F) x0 x1) (rep64 (val_main_v19 (F := F) x1)) := rfl

/-- The kernel's spelling of the second mean over the reciprocal, in the shared pieces. -/
theorem mean2K_def (h : (⟨S100000x16, .f32⟩ : BufTy).Contents (Elt F)) (v1 v3 : (⟨S1200000, .i32⟩ : BufTy).Contents (Elt F))
    (x1 : (⟨S2x1200000, .i32⟩ : BufTy).Contents (Elt F)) :
    mean2K (F := F) h v1 v3 (recip x1)
      = mulf (seg16 h v1 v3) (rep16 (Host.divf (val_main_v18 (F := F)) (val_main_v19 (F := F) x1))) := rfl
/-- The reference's spelling of the second mean, in the shared pieces: its own hidden layer's neighbourhood sums
    divided by the repeated `max (deg, 1)` (the degree count it forms a second time being the first). -/
theorem v48_def (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F)) :
    val_main_v48 (F := F) x0 x1 x2 x3 x4
      = Host.divf (seg16 (val_main_v29 (F := F) x0 x1 x2 x3 x4) (val_main_v1 (F := F) x1) (val_main_v3 (F := F) x1))
          (rep16 (val_main_v19 (F := F) x1)) := rfl

end AnyInstance

/-! ### At the ideal instance -/

/-- A per-node array repeated along 64 columns, read at node `P`, column `k`: the array at `P`. -/
theorem rep64_apply (y : (⟨S100000, .f32⟩ : BufTy).Contents (Elt Ideal)) (P : Fin 100000) (k : Fin 64) :
    rep64 y (ix2 P k) = y (ix1 P) := by
  unfold rep64
  rw [broadcastInDim_apply _ bcast_S100000x1_S100000x64_0_1 _ (ix2 P k) (ix2 P (0 : Fin 1)) (fun a => match a with
    | ⟨0, _⟩ => by show P.val = if (100000 : Nat) = 1 then 0 else P.val; rw [if_neg (by decide)]
    | ⟨1, _⟩ => by show 0 = if (1 : Nat) = 1 then 0 else k.val; rw [if_pos rfl])]
  exact broadcastInDim_apply _ bcast_S100000_S100000x1_0 y (ix2 P (0 : Fin 1)) (ix1 P) (fun a => match a with
    | ⟨0, _⟩ => by show P.val = if (100000 : Nat) = 1 then 0 else P.val; rw [if_neg (by decide)])

/-- The same along 16 columns. -/
theorem rep16_apply (y : (⟨S100000, .f32⟩ : BufTy).Contents (Elt Ideal)) (P : Fin 100000) (k : Fin 16) :
    rep16 y (ix2 P k) = y (ix1 P) := by
  unfold rep16
  rw [broadcastInDim_apply _ bcast_S100000x1_S100000x16_0_1 _ (ix2 P k) (ix2 P (0 : Fin 1)) (fun a => match a with
    | ⟨0, _⟩ => by show P.val = if (100000 : Nat) = 1 then 0 else P.val; rw [if_neg (by decide)]
    | ⟨1, _⟩ => by show 0 = if (1 : Nat) = 1 then 0 else k.val; rw [if_pos rfl])]
  exact broadcastInDim_apply _ bcast_S100000_S100000x1_0 y (ix2 P (0 : Fin 1)) (ix1 P) (fun a => match a with
    | ⟨0, _⟩ => by show P.val = if (100000 : Nat) = 1 then 0 else P.val; rw [if_neg (by decide)])

/-- The repeated constant one, read at any node, is one. -/
theorem ones_apply (i : S100000.Idx) : val_main_v18 (F := Ideal) i = 1 := by
  rw [val_main_v18_apply, val_main_cst_3_apply, Ideal.ofBits_def, Ideal.ofBits_one_f32]

/-- `max (deg, 1)` is at least one at every node. -/
theorem one_le_dmax (x1 : (⟨S2x1200000, .i32⟩ : BufTy).Contents (Elt Ideal)) (i : S100000.Idx) :
    (1 : EReal) ≤ val_main_v19 (F := Ideal) x1 i := by
  rw [val_main_v19_apply, Ideal.maximumf_def, ones_apply]
  exact le_max_right _ _

/-- THE LAW, for any arrays: sums `S` times the repeated quotient of an all-ones array by an array `D` that is at least
    one everywhere, is `S` divided by the repeated `D`. Entry by entry it is `s * (1 / d) = s / d` for `1 ≤ d`. -/
theorem mean_join64 (S : (⟨S100000x64, .f32⟩ : BufTy).Contents (Elt Ideal)) (ONE D : (⟨S100000, .f32⟩ : BufTy).Contents (Elt Ideal))
    (h1 : ∀ i, ONE i = 1) (hD : ∀ i, (1 : EReal) ≤ D i) :
    mulf S (rep64 (Host.divf ONE D)) = Host.divf S (rep64 D) := by
  funext i
  obtain ⟨P, k, rfl⟩ : ∃ (P : Fin 100000) (k : Fin 64), i = ix2 P k := ⟨i 0, i 1, eq_ix2 i⟩
  rw [hostDivf_apply, mulf_apply, rep64_apply, rep64_apply, hostDivf_apply, h1]
  exact Cert.Sage.mul_recip_eq_div _ _ (hD _)

/-- The same along 16 columns. -/
theorem mean_join16 (S : (⟨S100000x16, .f32⟩ : BufTy).Contents (Elt Ideal)) (ONE D : (⟨S100000, .f32⟩ : BufTy).Contents (Elt Ideal))
    (h1 : ∀ i, ONE i = 1) (hD : ∀ i, (1 : EReal) ≤ D i) :
    mulf S (rep16 (Host.divf ONE D)) = Host.divf S (rep16 D) := by
  funext i
  obtain ⟨P, k, rfl⟩ : ∃ (P : Fin 100000) (k : Fin 16), i = ix2 P k := ⟨i 0, i 1, eq_ix2 i⟩
  rw [hostDivf_apply, mulf_apply, rep16_apply, rep16_apply, hostDivf_apply, h1]
  exact Cert.Sage.mul_recip_eq_div _ _ (hD _)

/-- THE TWO SPELLINGS OF THE FIRST NEIGHBOURHOOD MEAN are one array: the sums times the repeated reciprocal of
    `max (deg, 1)`, and the sums divided by the repeated `max (deg, 1)`. -/
theorem mean1_eq (x0 : (⟨S100000x64, .f32⟩ : BufTy).Contents (Elt Ideal)) (x1 : (⟨S2x1200000, .i32⟩ : BufTy).Contents (Elt Ideal)) :
    mean1K x0 x1 = val_main_v22 (F := Ideal) x0 x1 := by
  rw [mean1K_def, v22_def]
  exact mean_join64 _ _ _ ones_apply (one_le_dmax x1)

/-- THE TWO SPELLINGS OF THE SECOND NEIGHBOURHOOD MEAN are one array, over ANY hidden layer `h` and index lists: the
    sums times the repeated reciprocal of `max (deg, 1)`, and the sums divided by the repeated `max (deg, 1)`. -/
theorem mean2_eq (h : (⟨S100000x16, .f32⟩ : BufTy).Contents (Elt Ideal)) (v1 v3 : (⟨S1200000, .i32⟩ : BufTy).Contents (Elt Ideal))
    (x1 : (⟨S2x1200000, .i32⟩ : BufTy).Contents (Elt Ideal)) :
    mean2K h v1 v3 (recip x1) = Host.divf (seg16 h v1 v3) (rep16 (val_main_v19 (F := Ideal) x1)) := by
  rw [mean2K_def]
  exact mean_join16 _ _ _ ones_apply (one_le_dmax x1)

end Cert.ReferenceIdeal.Shared

end
-- ==== Proof.HostK.lean ====
/-
  The kernel program's two stretches of host operations, read.

  Before the first pallas_call the host forms, from the feature array and the edge list, the first
  neighbourhood mean in the kernel's spelling (sums times the repeated reciprocal of `max (deg, 1)`),
  and leaves behind the source indices, the destination indices and that reciprocal. Between the two
  calls it forms the second neighbourhood mean the same way, from the first call's result and those three
  buffers. Each buffer a stretch writes is, from ANY contents, one of the shared pieces applied to the
  buffers the stretch reads.
-/
import proofs.«153827_j40518721470745_1_alg».proof.Proof.Gen.KernelIdeal.Frame
import proofs.«153827_j40518721470745_1_alg».proof.Proof.RefShared

noncomputable section

namespace Cert.KernelIdeal.HostK

open Idealize.ShloMosaic Idealize.ShloMosaic.TcCoe Idealize.SL.Sem Idealize.ShloMosaic.StableHlo
open Cert.KernelIdeal Cert.KernelIdeal.Gen
open Cert.ReferenceIdeal.ReadP Cert.ReferenceIdeal.Shared

variable {F : FTy → Type} [FloatOps F]

/-! ## Before the first call -/

set_option maxRecDepth 8192 in
/-- The first neighbourhood mean, in the kernel's spelling, of the features and the edge list the stretch finds. -/
theorem v24_after (W : Valuation τ sig (Elt F)) :
    after (hostOps0 (F := F)) W (Proc.devRef .tc main_v24)
      = mean1K (F := F) (W (Proc.devRef .tc main_arg0)) (W (Proc.devRef .tc main_arg1)) := by
  after_results_simp
  rfl

set_option maxRecDepth 8192 in
/-- The source indices it leaves behind. -/
theorem v1_after (W : Valuation τ sig (Elt F)) :
    after (hostOps0 (F := F)) W (Proc.devRef .tc main_v1) = val_main_v1 (F := F) (W (Proc.devRef .tc main_arg1)) := by
  after_results_simp
  rfl

set_option maxRecDepth 8192 in
/-- The destination indices it leaves behind. -/
theorem v3_after (W : Valuation τ sig (Elt F)) :
    after (hostOps0 (F := F)) W (Proc.devRef .tc main_v3) = val_main_v3 (F := F) (W (Proc.devRef .tc main_arg1)) := by
  after_results_simp
  rfl

set_option maxRecDepth 8192 in
/-- The reciprocal of `max (deg, 1)` it leaves behind. -/
theorem v11_after (W : Valuation τ sig (Elt F)) :
    after (hostOps0 (F := F)) W (Proc.devRef .tc main_v11) = recip (F := F) (W (Proc.devRef .tc main_arg1)) := by
  after_results_simp
  rfl

/-! ## Between the calls -/

set_option maxRecDepth 8192 in
/-- The second neighbourhood mean, in the kernel's spelling, of the first call's result, the two index lists and the
    reciprocal, as the stretch finds them. -/
theorem v38_after (W : Valuation τ sig (Elt F)) :
    after (hostOps1 (F := F)) W (Proc.devRef .tc main_v38)
      = mean2K (F := F) (W (Proc.devRef .tc main_v25)) (W (Proc.devRef .tc main_v1)) (W (Proc.devRef .tc main_v3))
          (W (Proc.devRef .tc main_v11)) := by
  after_results_simp
  rfl

set_option maxRecDepth 8192 in
/-- It writes none of the buffers the second call reads besides that mean: the first call's result and the second
    layer's weights and bias come through as they were. -/
theorem kept_after (W : Valuation τ sig (Elt F)) :
    after (hostOps1 (F := F)) W (Proc.devRef .tc main_v25) = W (Proc.devRef .tc main_v25)
    ∧ after (hostOps1 (F := F)) W (Proc.devRef .tc main_arg5) = W (Proc.devRef .tc main_arg5)
    ∧ after (hostOps1 (F := F)) W (Proc.devRef .tc main_arg6) = W (Proc.devRef .tc main_arg6)
    ∧ after (hostOps1 (F := F)) W (Proc.devRef .tc main_arg7) = W (Proc.devRef .tc main_arg7) := by
  refine ⟨?_, ?_, ?_, ?_⟩ <;> after_results_simp

end Cert.KernelIdeal.HostK

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Pay.lean ====
/-
  What each kernel body stores, read at one entry of its block, at the ideal instance.

  The first body multiplies its block of features by the self weights and its block of
  neighbourhood means by the neighbour weights (each product accumulated into zero), adds the two,
  adds the bias along every row and clips at zero from below: at row `p`, column `q` of the block
  that is the first layer `hid` of the block's own rows. A change of float format is the identity
  here, so the narrowing of the operands before the products leaves no trace.
  The second body forms the same linear part and then takes each row's log-softmax: the row's
  maximum (from -∞), the differences, their exponentials summed along the row, the logarithm.
-/
import proofs.«153827_j40518721470745_1_alg».proof.Proof.Gen.KernelIdeal.Skeleton
import proofs.«153827_j40518721470745_1_alg».proof.Proof.Spec
import proofs.«153827_j40518721470745_1_alg».proof.Proof.LibDot2
import Idealize.ShloMosaic.Lib.Pipeline.Value
import Idealize.ShloMosaic.Lib.IdealHost

noncomputable section

open scoped BigOperators

namespace Cert.KernelIdeal.Pay

open Idealize.ShloMosaic Idealize.ShloMosaic.ValueIdx Cert.KernelIdeal Cert.KernelIdeal.Gen

/-- The first body's stored value at row `p`, column `q` of its block. -/
theorem pay0_apply (x0 x1 : Vec Ideal S10000x64 .f32) (x2 x3 : Vec Ideal S64x16 .f32) (x4 : Vec Ideal S16 .f32)
    (p : Fin 10000) (q : Fin 16) :
    k0_pay1 (F := Ideal) x0 x1 x2 x3 x4 (ix2 p q) = Cert.Sage.hid x0 x1 x2 x3 x4 p q := by
  unfold k0_pay1 Cert.Sage.hid Cert.Sage.lin
  simp only [maximumf_apply, addf_apply, broadcast_apply, truncf_apply]
  -- the printed product is the plain product of a [10000, 64] by a [64, 16] array into zero: at (p, q) the sum
  -- over the contracted coordinate of the products of the operands' entries
  have hmm : ∀ (l : FVec Ideal S10000x64 .bf16) (r : FVec Ideal S64x16 .bf16),
      matmul dot_S10000x64_S64x16_S10000x16_1_0_0_1_n_n none l r (constant S10000x16 .f32 0x00000000#32) (ix2 p q)
        = ∑ k : Fin 64, l (ix2 p k) * r (ix2 k q) :=
    fun l r => Idealize.ShloMosaic.Dot2.matmul_zero_mm_apply dot_S10000x64_S64x16_S10000x16_1_0_0_1_n_n.wf none l r p q
  -- the bias, reshaped to one row and repeated down the rows, is the bias at the column
  have hb : broadcastTo S10000x16 (shapeCast S1x16 x4 shapeCasts_S16_S1x16) broadcasts_S1x16_S10000x16 (ix2 p q)
      = x4 (ix1 q) := by
    rw [broadcastTo_apply _ broadcasts_S1x16_S10000x16 (ix2 p q) (ix2 (0 : Fin 1) q)
      (fun a => by match a with | ⟨0, _⟩ => rfl | ⟨1, _⟩ => rfl)]
    rw [shapeCast_addUnit_apply]
    exact congrArg x4 (funext fun a => by match a with | ⟨0, _⟩ => rfl)
  rw [hmm, hmm, hb]
  simp only [truncf_apply, shapeCast_self, Ideal.ofBits_def, Ideal.ofBits_zero_f32]

/-! ## The second body's layout steps and reductions, one at a time -/

/-- The word of -∞ denotes the bottom of the extended reals. -/
theorem ofBits_ninf : Ideal.ofBits .f32 0xFF800000#32 = ⊥ := by
  simp [Ideal.ofBits, Ideal.ieee]

/-- A one-column array repeated along forty columns, read at row `p`, column `q`: the column's entry at row `p`. -/
theorem repeat_col_apply (X : FVec Ideal S10000x1 .f32) (p : Fin 10000) (q : Fin 40) :
    broadcastTo S10000x40 X broadcasts_S10000x1_S10000x40 (ix2 p q) = X (ix2 p (0 : Fin 1)) :=
  broadcastTo_apply X broadcasts_S10000x1_S10000x40 (ix2 p q) (ix2 p (0 : Fin 1))
    (fun a => by match a with | ⟨0, _⟩ => rfl | ⟨1, _⟩ => rfl)

/-- A length-10000 array laid out as one column, read at row `p`: the array's entry at `p` (the two row-major
    positions are the same number, `p` and `p * 1 + 0`). -/
theorem as_col_apply (y : FVec Ideal S10000 .f32) (p : Fin 10000) :
    shapeCast S10000x1 y shapeCasts_S10000_S10000x1 (ix2 p (0 : Fin 1)) = y (ix1 p) :=
  shapeCast_apply y shapeCasts_S10000_S10000x1 (ix2 p (0 : Fin 1)) (ix1 p) (by
    rw [Shape.rowMajor_val_one, Shape.rowMajor_val_two]
    show p.val = p.val * 1 + 0
    omega)

/-- A row's maximum from -∞: the fold of `max` from the bottom over the row's forty entries. -/
theorem row_max_apply (L : FVec Ideal S10000x40 .f32) (hφ : FKind.Formats .f32)
    (hacc : (0xFF800000#32 : BitVec 32) = FKind.maximumf.neutral .f32 hφ) (p : Fin 10000) :
    multiReduction .maximumf [1] S10000 L 0xFF800000#32 reduces_S10000x40_S10000 hφ hacc (ix1 p)
      = Finset.univ.fold max ⊥ (fun k : Fin 40 => L (ix2 p k)) := by
  rw [Ideal.multiReduction_maximumf_single, Ideal.ofBits_def, ofBits_ninf]
  -- the entry the reduction reads at position `k` of row `p` is the entry at (p, k): coordinate by coordinate
  refine congrArg (fun f => Finset.univ.fold max ⊥ f) (funext fun k => congrArg L (funext fun a => Fin.ext ?_))
  match a with
  | ⟨0, _⟩ => rfl
  | ⟨1, _⟩ => rfl

/-- A row's sum from zero: the sum of the row's forty entries. -/
theorem row_sum_apply (E : FVec Ideal S10000x40 .f32) (hφ : FKind.Formats .f32)
    (hacc : (0x00000000#32 : BitVec 32) = FKind.add.neutral .f32 hφ) (p : Fin 10000) :
    multiReduction .add [1] S10000 E 0x00000000#32 reduces_S10000x40_S10000 hφ hacc (ix1 p)
      = ∑ k : Fin 40, E (ix2 p k) := by
  rw [Ideal.multiReduction_add_single]
  refine Finset.sum_congr rfl fun k _ => congrArg E (funext fun a => Fin.ext ?_)
  match a with
  | ⟨0, _⟩ => rfl
  | ⟨1, _⟩ => rfl

/-- THE LOG-SOFTMAX OF A VECTOR. What the second body does after its linear part `L`: the row maximum laid out as a
    column and repeated along the row, subtracted; the exponentials summed along the row; the logarithm of the sums laid
    out and repeated the same way, subtracted. At row `p`, column `q` that is the log-softmax of row `p` of `L`. -/
theorem softmax_body_apply (L : FVec Ideal S10000x40 .f32) (hφ : FKind.Formats .f32)
    (hm : (0xFF800000#32 : BitVec 32) = FKind.maximumf.neutral .f32 hφ)
    (hs : (0x00000000#32 : BitVec 32) = FKind.add.neutral .f32 hφ) (p : Fin 10000) (q : Fin 40) :
    subf (subf L (broadcastTo S10000x40 (shapeCast S10000x1
            (multiReduction .maximumf [1] S10000 L 0xFF800000#32 reduces_S10000x40_S10000 hφ hm)
            shapeCasts_S10000_S10000x1) broadcasts_S10000x1_S10000x40))
        (broadcastTo S10000x40 (log (shapeCast S10000x1
            (multiReduction .add [1] S10000
              (exp (subf L (broadcastTo S10000x40 (shapeCast S10000x1
                (multiReduction .maximumf [1] S10000 L 0xFF800000#32 reduces_S10000x40_S10000 hφ hm)
                shapeCasts_S10000_S10000x1) broadcasts_S10000x1_S10000x40)))
              0x00000000#32 reduces_S10000x40_S10000 hφ hs)
            shapeCasts_S10000_S10000x1)) broadcasts_S10000x1_S10000x40) (ix2 p q)
      = Cert.Sage.lsm (fun a b => L (ix2 a b)) p q := by
  unfold Cert.Sage.lsm
  -- the two outer differences at (p, q); the column layouts; the logarithm at row p
  simp only [subf_apply, repeat_col_apply, log, as_col_apply, Ideal.log_def]
  -- the row's maximum, and the row's sum of exponentials
  rw [row_max_apply L hφ hm p, row_sum_apply _ hφ hs p]
  -- under the sum: each exponential's argument is the entry less the row's maximum, laid out the same way
  simp only [exp, subf_apply, repeat_col_apply, as_col_apply, Ideal.exp_def]
  rw [row_max_apply L hφ hm p]

/-- The second body's stored value at row `p`, column `q` of its block. -/
theorem pay1_apply (v0 v3 : Vec Ideal S10000x16 .f32) (v6 v8 : Vec Ideal S16x40 .f32) (v13 : Vec Ideal S40 .f32)
    (p : Fin 10000) (q : Fin 40) :
    k1_pay1 (F := Ideal) v0 v3 v6 v8 v13 (ix2 p q) = Cert.Sage.lsm (Cert.Sage.lin v0 v3 v6 v8 v13) p q := by
  -- the linear part at an entry, as for the first body: two products into zero, summed, and the bias down the rows
  have hmm : ∀ (l : FVec Ideal S10000x16 .bf16) (r : FVec Ideal S16x40 .bf16) (a : Fin 10000) (b : Fin 40),
      matmul dot_S10000x16_S16x40_S10000x40_1_0_0_1_n_n none l r (constant S10000x40 .f32 0x00000000#32) (ix2 a b)
        = ∑ k : Fin 16, l (ix2 a k) * r (ix2 k b) :=
    fun l r a b => Idealize.ShloMosaic.Dot2.matmul_zero_mm_apply dot_S10000x16_S16x40_S10000x40_1_0_0_1_n_n.wf none l r a b
  have hb : ∀ (a : Fin 10000) (b : Fin 40),
      broadcastTo S10000x40 (shapeCast S1x40 v13 shapeCasts_S40_S1x40) broadcasts_S1x40_S10000x40 (ix2 a b) = v13 (ix1 b) := by
    intro a b
    rw [broadcastTo_apply _ broadcasts_S1x40_S10000x40 (ix2 a b) (ix2 (0 : Fin 1) b)
      (fun c => by match c with | ⟨0, _⟩ => rfl | ⟨1, _⟩ => rfl)]
    rw [shapeCast_addUnit_apply]
    exact congrArg v13 (funext fun c => by match c with | ⟨0, _⟩ => rfl)
  -- the body is its linear part followed by the log-softmax of that vector
  refine (softmax_body_apply _ _ _ _ p q).trans ?_
  refine Cert.Sage.lsm_rows (fun a => a) _ _ (fun a b => ?_) p q
  unfold Cert.Sage.lin
  simp only [addf_apply, hmm, hb, truncf_apply, shapeCast_self]

end Cert.KernelIdeal.Pay

end
-- ==== Proof.Reg0.lean ====
/-
  What the first pallas_call leaves in its result array.

  The call walks the hundred thousand rows in ten blocks of ten thousand. At block `t` it stages rows
  `10000 t … 10000 t + 9999` of the features and of the neighbourhood means, the two weight matrices and
  the bias whole, runs the body, and writes the body's block back to the same rows of the result. The
  body's value at row `p` of its block is the first layer of the BLOCK's rows, and a block's rows are
  the array's rows `10000 t + p`, so what block `t` writes back is block `t` of ONE array: the first
  layer of the whole feature and neighbourhood-mean arrays. The ten blocks cover every row (row `r`
  is in block `r / 10000`), so that array is what the result holds when the call returns.
-/
import proofs.«153827_j40518721470745_1_alg».proof.Proof.Gen.KernelIdeal.Frame
import proofs.«153827_j40518721470745_1_alg».proof.Proof.Pay
import Idealize.ShloMosaic.Lib.Pipeline.Value

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- Where each window's block sits at grid point `t`, decided over the ten points: the row-indexed windows (the
    features, the neighbourhood means, the result) at block row `t`, block column 0; the weights and the bias at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem hz2 : (![0, 0] : Fin 2 → Nat) = fun _ => 0 := funext fun a => by fin_cases a <;> rfl
theorem hz1 : (![0] : Fin 1 → Nat) = fun _ => 0 := funext fun a => by fin_cases a <;> rfl

/-! ## The point's input blocks, at their literal types -/

/-- The row of the arrays that row `p` of block `t` is. -/
def row (t : Fin cfg0.N) (p : Fin 10000) : Fin 100000 :=
  ⟨t.val * 10000 + p.val, by have ht : t.val < 10 := t.isLt; have hp := p.isLt; omega⟩

abbrev xblk (c : Dev nD) (t : Fin cfg0.N) : Vec Ideal S10000x64 .f32 := iblk0 V c 0 t
abbrev ablk (c : Dev nD) (t : Fin cfg0.N) : Vec Ideal S10000x64 .f32 := iblk0 V c 1 t
abbrev wsblk (c : Dev nD) (t : Fin cfg0.N) : Vec Ideal S64x16 .f32 := iblk0 V c 2 t
abbrev wnblk (c : Dev nD) (t : Fin cfg0.N) : Vec Ideal S64x16 .f32 := iblk0 V c 3 t
abbrev bblk (c : Dev nD) (t : Fin cfg0.N) : Vec Ideal S16 .f32 := iblk0 V c 4 t

/-- Row `p` of the features' block at point `t` is row `10000 t + p` of the features. -/
theorem xblk_apply (c : Dev nD) (t : Fin cfg0.N) (p : Fin 10000) (k : Fin 64) :
    xblk V c t (ix2 p k) = V c main_arg0 (ix2 (row t p) k) := by
  obtain ⟨e00, e01, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The same for the neighbourhood means' block. -/
theorem ablk_apply (c : Dev nD) (t : Fin cfg0.N) (p : Fin 10000) (k : Fin 64) :
    ablk V c t (ix2 p k) = V c main_v24 (ix2 (row t p) k) := by
  obtain ⟨-, -, e10, e11, -⟩ := idx_facts t
  show V c main_v24 (((cfg0.win 1).blk t).view.emb (ix2 p k)) = _
  refine congrArg (V c main_v24) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- The self weights' block is the whole matrix, at every point. -/
theorem wsblk_eq (c : Dev nD) (t : Fin cfg0.N) : wsblk V c t = V c main_arg2 := by
  obtain ⟨-, -, -, -, e20, e21, -⟩ := idx_facts t
  funext y
  show V c main_arg2 (((cfg0.win 2).blk t).view.emb y) = _
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 16 + 1 * (y 1).val = (y 1).val; omega

/-- The neighbour weights' block is the whole matrix, at every point. -/
theorem wnblk_eq (c : Dev nD) (t : Fin cfg0.N) : wnblk V c t = V c main_arg3 := by
  obtain ⟨-, -, -, -, -, -, e30, e31, -⟩ := idx_facts t
  funext y
  show V c main_arg3 (((cfg0.win 3).blk t).view.emb y) = _
  refine congrArg (V c main_arg3) (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

/-- The bias's block is the whole bias, at every point. -/
theorem bblk_eq (c : Dev nD) (t : Fin cfg0.N) : bblk V c t = V c main_arg4 := by
  obtain ⟨-, -, -, -, -, -, -, -, e40, -⟩ := idx_facts t
  funext y
  show V c main_arg4 (((cfg0.win 4).blk t).view.emb y) = _
  refine congrArg (V c main_arg4) (funext fun a => Fin.ext ?_)
  match a with
  | ⟨0, _⟩ => show win0_4.index t (0 : Fin 1) * 16 + 1 * (y 0).val = (y 0).val; omega

/-! ## What a point writes back, and the whole array -/

/-- The first layer of the whole arrays the call finds, entry by entry. -/
def G0 (c : Dev nD) : S100000x16.Idx → EReal := fun i =>
  Cert.Sage.hid (V c main_arg0) (V c main_v24) (V c main_arg2) (V c main_arg3) (V c main_arg4) (i 0) (i 1)

/-- WHAT POINT `t` WRITES BACK is block `t` of the first layer of the whole arrays. -/
theorem flushed_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x16) hz2, View.ld_unit_zero (S := S16) hz1]
  funext j
  obtain ⟨p, q, rfl⟩ : ∃ (p : Fin 10000) (q : Fin 16), j = ix2 p q := ⟨j 0, j 1, eq_ix2 j⟩
  obtain ⟨-, -, -, -, -, -, -, -, -, e50, e51⟩ := idx_facts t
  show k0_pay1 (F := Ideal) (xblk V c t) (ablk V c t) (wsblk V c t) (wnblk V c t) (bblk V c t) (ix2 p q)
    = G0 V c (((cfg0.win 5).blk t).view.emb (ix2 p q))
  rw [Cert.KernelIdeal.Pay.pay0_apply, wsblk_eq, wnblk_eq, bblk_eq]
  have he : ((cfg0.win 5).blk t).view.emb (ix2 p q) = ix2 (row t p) q := funext fun a => Fin.ext (by
    match a with
    | ⟨0, _⟩ => show win0_5.index t (0 : Fin 2) * 10000 + 1 * p.val = t.val * 10000 + p.val; omega
    | ⟨1, _⟩ => show win0_5.index t (1 : Fin 2) * 16 + 1 * q.val = q.val; omega)
  rw [he]
  unfold G0 Cert.Sage.hid
  exact congrArg (fun z => max z 0)
    (Cert.Sage.lin_rows (row t) (xblk V c t) (ablk V c t) (V c main_arg0) (V c main_v24) (V c main_arg2) (V c main_arg3)
      (V c main_arg4) (xblk_apply V c t) (ablk_apply V c t) p q)

/-- An index of the result array is in point `t`'s block when each coordinate is in the block's range on its axis. -/
theorem mem_blk (t : Fin cfg0.N) (i : S100000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v25).slice (win0_5.rect t)).set ↔ _
  rw [View.set_slice_whole, Rect.mem_set_unit]
  exact Iff.rfl

/-- The ten blocks cover the array: row `r` is in the block of point `r / 10000`, and there is one block column. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  let t : Fin cfg0.N := ⟨(i 0).val / 10000, by show (i 0).val / 10000 < 10; omega⟩
  obtain ⟨-, -, -, -, -, -, -, -, -, e50, e51⟩ := idx_facts t
  have ht : t.val = (i 0).val / 10000 := rfl
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 16 ≤ (i 1).val ∧ (i 1).val < win0_5.index t (1 : Fin 2) * 16 + 16
    omega

/-- THE RESULT ARRAY when the first call returns: the first layer of the whole arrays it found. -/
theorem final (c : Dev nD) : (dat0 V c).arrAt 5 cfg0.N = G0 V c :=
  (dat0 V c).arrAt_eq_of_cover 5 (G0 V c) (fun t _ => flushed_eq V c t) cover

end Cert.KernelIdeal.Reg0

end
-- ==== Proof.Reg1.lean ====
/-
  What the second pallas_call leaves in its result array.

  Like the first, it walks the hundred thousand rows in ten blocks of ten thousand. At block `t` it stages rows
  `10000 t … 10000 t + 9999` of the hidden layer and of the second neighbourhood means, the second layer's two
  weight matrices and bias whole, runs the body, and writes the body's block back to the same rows of the
  result. The body's value at row `p` of its block is the log-softmax of the linear part of the BLOCK's rows;
  a row's log-softmax reads that row of the linear part only, and a row of the linear part reads that row of
  the two row-indexed operands only, so what block `t` writes back is block `t` of ONE array: the
  log-softmax, row by row, of the second layer's linear part of the whole arrays. The ten blocks cover every
  row, so that array is what the result holds when the call returns.
-/
import proofs.«153827_j40518721470745_1_alg».proof.Proof.Gen.KernelIdeal.Frame
import proofs.«153827_j40518721470745_1_alg».proof.Proof.Pay
import Idealize.ShloMosaic.Lib.Pipeline.Value

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- Where each window's block sits at grid point `t`, decided over the ten points: the row-indexed windows (the
    hidden layer, the second neighbourhood means, the result) at block row `t`, block column 0; the weights and the bias at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem hz2 : (![0, 0] : Fin 2 → Nat) = fun _ => 0 := funext fun a => by fin_cases a <;> rfl
theorem hz1 : (![0] : Fin 1 → Nat) = fun _ => 0 := funext fun a => by fin_cases a <;> rfl

/-! ## The point's input blocks, at their literal types -/

/-- The row of the arrays that row `p` of block `t` is. -/
def row (t : Fin cfg1.N) (p : Fin 10000) : Fin 100000 :=
  ⟨t.val * 10000 + p.val, by have ht : t.val < 10 := t.isLt; have hp := p.isLt; omega⟩

abbrev xblk (c : Dev nD) (t : Fin cfg1.N) : Vec Ideal S10000x16 .f32 := iblk1 V c 0 t
abbrev ablk (c : Dev nD) (t : Fin cfg1.N) : Vec Ideal S10000x16 .f32 := iblk1 V c 1 t
abbrev wsblk (c : Dev nD) (t : Fin cfg1.N) : Vec Ideal S16x40 .f32 := iblk1 V c 2 t
abbrev wnblk (c : Dev nD) (t : Fin cfg1.N) : Vec Ideal S16x40 .f32 := iblk1 V c 3 t
abbrev bblk (c : Dev nD) (t : Fin cfg1.N) : Vec Ideal S40 .f32 := iblk1 V c 4 t

/-- Row `p` of the hidden layer's block at point `t` is row `10000 t + p` of the hidden layer. -/
theorem xblk_apply (c : Dev nD) (t : Fin cfg1.N) (p : Fin 10000) (k : Fin 16) :
    xblk V c t (ix2 p k) = V c main_v25 (ix2 (row t p) k) := by
  obtain ⟨e00, e01, -⟩ := idx_facts t
  show V c main_v25 (((cfg1.win 0).blk t).view.emb (ix2 p k)) = _
  refine congrArg (V c main_v25) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * k.val = k.val; omega

/-- The same for the second neighbourhood means' block. -/
theorem ablk_apply (c : Dev nD) (t : Fin cfg1.N) (p : Fin 10000) (k : Fin 16) :
    ablk V c t (ix2 p k) = V c main_v38 (ix2 (row t p) k) := by
  obtain ⟨-, -, e10, e11, -⟩ := idx_facts t
  show V c main_v38 (((cfg1.win 1).blk t).view.emb (ix2 p k)) = _
  refine congrArg (V c main_v38) (funext fun a => Fin.ext ?_)
  match a with
  | ⟨0, _⟩ => show win1_1.index t (0 : Fin 2) * 10000 + 1 * p.val = t.val * 10000 + p.val; omega
  | ⟨1, _⟩ => show win1_1.index t (1 : Fin 2) * 16 + 1 * k.val = k.val; omega

/-- The second layer's self weights' block is the whole matrix, at every point. -/
theorem wsblk_eq (c : Dev nD) (t : Fin cfg1.N) : wsblk V c t = V c main_arg5 := by
  obtain ⟨-, -, -, -, e20, e21, -⟩ := idx_facts t
  funext y
  show V c main_arg5 (((cfg1.win 2).blk t).view.emb y) = _
  refine congrArg (V c main_arg5) (funext fun a => Fin.ext ?_)
  match a with
  | ⟨0, _⟩ => show win1_2.index t (0 : Fin 2) * 16 + 1 * (y 0).val = (y 0).val; omega
  | ⟨1, _⟩ => show win1_2.index t (1 : Fin 2) * 40 + 1 * (y 1).val = (y 1).val; omega

/-- The second layer's neighbour weights' block is the whole matrix, at every point. -/
theorem wnblk_eq (c : Dev nD) (t : Fin cfg1.N) : wnblk V c t = V c main_arg6 := by
  obtain ⟨-, -, -, -, -, -, e30, e31, -⟩ := idx_facts t
  funext y
  show V c main_arg6 (((cfg1.win 3).blk t).view.emb y) = _
  refine congrArg (V c main_arg6) (funext fun a => Fin.ext ?_)
  match a with
  | ⟨0, _⟩ => show win1_3.index t (0 : Fin 2) * 16 + 1 * (y 0).val = (y 0).val; omega
  | ⟨1, _⟩ => show win1_3.index t (1 : Fin 2) * 40 + 1 * (y 1).val = (y 1).val; omega

/-- The second layer's bias's block is the whole bias, at every point. -/
theorem bblk_eq (c : Dev nD) (t : Fin cfg1.N) : bblk V c t = V c main_arg7 := by
  obtain ⟨-, -, -, -, -, -, -, -, e40, -⟩ := idx_facts t
  funext y
  show V c main_arg7 (((cfg1.win 4).blk t).view.emb y) = _
  refine congrArg (V c main_arg7) (funext fun a => Fin.ext ?_)
  match a with
  | ⟨0, _⟩ => show win1_4.index t (0 : Fin 1) * 40 + 1 * (y 0).val = (y 0).val; omega

/-! ## What a point writes back, and the whole array -/

/-- The log-softmax, row by row, of the second layer's linear part of the whole arrays the call finds, entry by
    entry. -/
def G1 (c : Dev nD) : S100000x40.Idx → EReal := fun i =>
  Cert.Sage.lsm (Cert.Sage.lin (V c main_v25) (V c main_v38) (V c main_arg5) (V c main_arg6) (V c main_arg7)) (i 0) (i 1)

/-- WHAT POINT `t` WRITES BACK is block `t` of the row-wise log-softmax of the linear part of the whole arrays. -/
theorem flushed_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S10000x16) hz2, View.ld_unit_zero (S := S16x40) hz2, View.ld_unit_zero (S := S40) hz1]
  funext j
  obtain ⟨p, q, rfl⟩ : ∃ (p : Fin 10000) (q : Fin 40), j = ix2 p q := ⟨j 0, j 1, eq_ix2 j⟩
  obtain ⟨-, -, -, -, -, -, -, -, -, e50, e51⟩ := idx_facts t
  show k1_pay1 (F := Ideal) (xblk V c t) (ablk V c t) (wsblk V c t) (wnblk V c t) (bblk V c t) (ix2 p q)
    = G1 V c (((cfg1.win 5).blk t).view.emb (ix2 p q))
  rw [Cert.KernelIdeal.Pay.pay1_apply, wsblk_eq, wnblk_eq, bblk_eq]
  have he : ((cfg1.win 5).blk t).view.emb (ix2 p q) = ix2 (row t p) q := funext fun a => Fin.ext (by
    match a with
    | ⟨0, _⟩ => show win1_5.index t (0 : Fin 2) * 10000 + 1 * p.val = t.val * 10000 + p.val; omega
    | ⟨1, _⟩ => show win1_5.index t (1 : Fin 2) * 40 + 1 * q.val = q.val; omega)
  rw [he]
  unfold G1
  -- a row's log-softmax reads that row of the linear part, which reads that row of the two row-indexed operands
  exact Cert.Sage.lsm_rows (row t) _ _ (fun a b =>
    Cert.Sage.lin_rows (row t) (xblk V c t) (ablk V c t) (V c main_v25) (V c main_v38) (V c main_arg5) (V c main_arg6)
      (V c main_arg7) (xblk_apply V c t) (ablk_apply V c t) a b) p q

/-- An index of the result array is in point `t`'s block when each coordinate is in the block's range on its axis. -/
theorem mem_blk (t : Fin cfg1.N) (i : S100000x40.Idx) :
    i ∈ ((cfg1.win 5).blk t).view.set ↔ ∀ a : Fin 2, win1_5.index t a * S10000x40.size a ≤ (i a).val
      ∧ (i a).val < win1_5.index t a * S10000x40.size a + S10000x40.size a := by
  show i ∈ ((View.whole main_v39).slice (win1_5.rect t)).set ↔ _
  rw [View.set_slice_whole, Rect.mem_set_unit]
  exact Iff.rfl

/-- The ten blocks cover the array: row `r` is in the block of point `r / 10000`, and there is one block column. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  let t : Fin cfg1.N := ⟨(i 0).val / 10000, by show (i 0).val / 10000 < 10; omega⟩
  obtain ⟨-, -, -, -, -, -, -, -, -, e50, e51⟩ := idx_facts t
  have ht : t.val = (i 0).val / 10000 := rfl
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 40 ≤ (i 1).val ∧ (i 1).val < win1_5.index t (1 : Fin 2) * 40 + 40
    omega

/-- THE RESULT ARRAY when the second call returns: the row-wise log-softmax of the linear part of the whole arrays
    it found. -/
theorem final (c : Dev nD) : (dat1 V c).arrAt 5 cfg1.N = G1 V c :=
  (dat1 V c).arrAt_eq_of_cover 5 (G1 V c) (fun t _ => flushed_eq V c t) cover

end Cert.KernelIdeal.Reg1

end
-- ==== Proof.Walk.lean ====
/-
  The kernel program's result as a function of its arguments.

  From the launch memory, through the first host stretch, the first pallas_call, the second host stretch
  and the second pallas_call, the result buffer ends holding: the row-wise log-softmax of the second layer's
  linear part of the hidden layer `H` and its neighbourhood mean, where `H` is the first layer of the
  features and THEIR neighbourhood mean, each mean in the kernel's spelling. Every step is one of: a region's
  result array is the layer of what the region finds; a host stretch's buffer is a shared piece of what the
  stretch finds; a buffer nothing writes is what it was.
-/
import proofs.«153827_j40518721470745_1_alg».proof.Proof.HostK
import proofs.«153827_j40518721470745_1_alg».proof.Proof.Reg0
import proofs.«153827_j40518721470745_1_alg».proof.Proof.Reg1

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen
open Cert.ReferenceIdeal.ReadP Cert.ReferenceIdeal.Shared

variable (m : (ℓ : Loc nD τ sig) → Buf (Elt Ideal) ℓ) (ρ : Dev nD → PrngReg)

/-- The hidden layer the kernel program computes: the first layer of the features and their neighbourhood mean in the
    kernel's spelling. -/
def hiddenK (c : Dev nD) : S100000x16.Idx → EReal := fun i =>
  Cert.Sage.hid (m ((c : Thread nD τ).loc main_arg0))
    (mean1K (m ((c : Thread nD τ).loc main_arg0)) (m ((c : Thread nD τ).loc main_arg1)))
    (m ((c : Thread nD τ).loc main_arg2)) (m ((c : Thread nD τ).loc main_arg3)) (m ((c : Thread nD τ).loc main_arg4)) (i 0) (i 1)

/-- What the first call finds in each buffer it reads. -/
theorem V1_reads (c : Dev nD) :
    V1 m ρ c main_arg0 = m ((c : Thread nD τ).loc main_arg0)
    ∧ V1 m ρ c main_v24 = mean1K (m ((c : Thread nD τ).loc main_arg0)) (m ((c : Thread nD τ).loc main_arg1))
    ∧ V1 m ρ c main_arg2 = m ((c : Thread nD τ).loc main_arg2)
    ∧ V1 m ρ c main_arg3 = m ((c : Thread nD τ).loc main_arg3)
    ∧ V1 m ρ c main_arg4 = m ((c : Thread nD τ).loc main_arg4) := by
  refine ⟨?_, Cert.KernelIdeal.HostK.v24_after (W0 m ρ c), ?_, ?_, ?_⟩ <;>
    (show after (hostOps0 (F := Ideal)) (W0 m ρ c) _ = _; after_results_simp)

/-- THE FIRST CALL'S RESULT, at its exit: the hidden layer. -/
theorem W2_v25 (c : Dev nD) : W2 m ρ c (Proc.devRef .tc main_v25) = hiddenK m c := by
  obtain ⟨h0, h24, h2, h3, h4⟩ := V1_reads m ρ c
  rw [W2_arr m ρ c 5, Cert.KernelIdeal.Reg0.final]
  unfold Cert.KernelIdeal.Reg0.G0 hiddenK
  rw [h0, h24, h2, h3, h4]

/-- The buffers the first stretch leaves behind come through the first call untouched: it writes only its result. -/
theorem W2_kept (c : Dev nD) :
    W2 m ρ c (Proc.devRef .tc main_v1) = val_main_v1 (F := Ideal) (m ((c : Thread nD τ).loc main_arg1))
    ∧ W2 m ρ c (Proc.devRef .tc main_v3) = val_main_v3 (F := Ideal) (m ((c : Thread nD τ).loc main_arg1))
    ∧ W2 m ρ c (Proc.devRef .tc main_v11) = recip (F := Ideal) (m ((c : Thread nD τ).loc main_arg1)) :=
  ⟨(W2_of_ne m ρ c main_v1 (by decide)).trans (Cert.KernelIdeal.HostK.v1_after (W0 m ρ c)),
   (W2_of_ne m ρ c main_v3 (by decide)).trans (Cert.KernelIdeal.HostK.v3_after (W0 m ρ c)),
   (W2_of_ne m ρ c main_v11 (by decide)).trans (Cert.KernelIdeal.HostK.v11_after (W0 m ρ c))⟩

/-- The second layer's weights and bias come through the first stretch and the first call as launched. -/
theorem W2_args (c : Dev nD) :
    W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7) := by
  refine ⟨(W2_of_ne m ρ c main_arg5 (by decide)).trans ?_, (W2_of_ne m ρ c main_arg6 (by decide)).trans ?_,
    (W2_of_ne m ρ c main_arg7 (by decide)).trans ?_⟩ <;>
    (show after (hostOps0 (F := Ideal)) (W0 m ρ c) _ = _; after_results_simp)

/-- What the second call finds in each buffer it reads: the hidden layer, its neighbourhood mean in the kernel's
    spelling, and the second layer's weights and bias. -/
theorem V3_reads (c : Dev nD) :
    V3 m ρ c main_v25 = hiddenK m c
    ∧ V3 m ρ c main_v38 = mean2K (hiddenK m c) (val_main_v1 (F := Ideal) (m ((c : Thread nD τ).loc main_arg1)))
        (val_main_v3 (F := Ideal) (m ((c : Thread nD τ).loc main_arg1))) (recip (F := Ideal) (m ((c : Thread nD τ).loc main_arg1)))
    ∧ V3 m ρ c main_arg5 = m ((c : Thread nD τ).loc main_arg5)
    ∧ V3 m ρ c main_arg6 = m ((c : Thread nD τ).loc main_arg6)
    ∧ V3 m ρ c main_arg7 = m ((c : Thread nD τ).loc main_arg7) := by
  obtain ⟨k25, k5, k6, k7⟩ := Cert.KernelIdeal.HostK.kept_after (F := Ideal) (W2 m ρ c)
  obtain ⟨h1, h3, h11⟩ := W2_kept m ρ c
  obtain ⟨a5, a6, a7⟩ := W2_args m ρ c
  refine ⟨k25.trans (W2_v25 m ρ c), ?_, k5.trans a5, k6.trans a6, k7.trans a7⟩
  refine (Cert.KernelIdeal.HostK.v38_after (F := Ideal) (W2 m ρ c)).trans ?_
  rw [W2_v25 m ρ c, h1, h3, h11]

/-- THE KERNEL PROGRAM'S RESULT: at the end the result buffer holds the row-wise log-softmax of the second layer's linear
    part of the hidden layer and its neighbourhood mean. -/
theorem result (c : Dev nD) :
    W4 m ρ c (Proc.devRef .tc main_v39) = fun i =>
      Cert.Sage.lsm (Cert.Sage.lin (hiddenK m c)
        (mean2K (hiddenK m c) (val_main_v1 (F := Ideal) (m ((c : Thread nD τ).loc main_arg1)))
          (val_main_v3 (F := Ideal) (m ((c : Thread nD τ).loc main_arg1))) (recip (F := Ideal) (m ((c : Thread nD τ).loc main_arg1))))
        (m ((c : Thread nD τ).loc main_arg5)) (m ((c : Thread nD τ).loc main_arg6)) (m ((c : Thread nD τ).loc main_arg7))) (i 0) (i 1) := by
  obtain ⟨h25, h38, h5, h6, h7⟩ := V3_reads m ρ c
  rw [W4_arr m ρ c 5, Cert.KernelIdeal.Reg1.final]
  unfold Cert.KernelIdeal.Reg1.G1
  rw [h25, h38, h5, h6, h7]
  -- both sides are now the same function, entry by entry
  funext i
  rfl

end Cert.KernelIdeal.Walk

end
-- ==== Proof.LibTRef.lean ====
/-
  A tensor value carried through a typed reference comes back as it went in.

  A module-local function's operations name their operands and results by typed references: a
  buffer together with the fact that the buffer's element type and shape are the value's. A value
  is written into the buffer by transport along that fact and read out of it by transport along the
  same fact the other way. Whatever the fact's proof, the two transports cancel: writing a value
  through a reference and reading it back through the same reference gives the value, and reading
  then writing gives the buffer's contents. Neither statement compares the two types; each follows
  by taking the reference apart and replacing the value's type by the buffer's.
-/
import Idealize.ShloMosaic.Lib.StableHlo

namespace Idealize.ShloMosaic.StableHlo.TRef

open Idealize.ShloMosaic

variable {sig : RefSig} {T : BufTy} {Val : EltTy → Type}

/-- Written through a typed reference and read back through it, a value is unchanged. -/
theorem ofBuf_toBuf (x : TRef sig T) (v : T.Contents Val) : x.ofBuf (x.toBuf v) = v := by
  obtain ⟨r, h, hd, hu⟩ := x
  subst h
  rfl

/-- Read through a typed reference and written back through it, a buffer's contents are unchanged. -/
theorem toBuf_ofBuf (x : TRef sig T) (v : x.ref.ty.Contents Val) : x.toBuf (x.ofBuf v) = v := by
  obtain ⟨r, h, hd, hu⟩ := x
  subst h
  rfl

end Idealize.ShloMosaic.StableHlo.TRef
-- ==== Proof.RefFold.lean ====
/-
  The reference's result, read out of its run.

  The run leaves the result buffer at the fold of the program's 84 host operations over the launch
  contents. Read in one piece that fold is too deep a term, so the operation list is cut where the
  first layer ends: the first 38 operations compute the degree count, the first neighbourhood mean
  and the hidden layer; the other 46 compute the second neighbourhood mean from the hidden layer,
  the second layer's linear part and its log-softmax. The contents after a list that is two lists
  in a row are the contents after the second, started from the contents after the first. So the
  result is the second half's value at the hidden layer, the source and destination indices and
  the second layer's weights, with the hidden layer in its turn the first half's value at the
  arguments.
-/
import proofs.«153827_j40518721470745_1_alg».proof.Proof.RefRead
import Idealize.ShloMosaic.Lib.Pipeline.Frame
import proofs.«153827_j40518721470745_1_alg».proof.Proof.LibTRef

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first layer: the operations up to and including the clipped sum that is the hidden layer. -/
abbrev ops₁ : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_cst (constant S_ .f32 0x3F800000#32),
    unary main_cst main_v4 (broadcastInDim S1200000 ![] bcast_S_S1200000 : (⟨S_, .f32⟩ : BufTy).Contents (Elt F) → (⟨S1200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1200000x1 ![0] bcast_S1200000_S1200000x1_0 : (⟨S1200000, .i32⟩ : BufTy).Contents (Elt F) → (⟨S1200000x1, .i32⟩ : BufTy).Contents (Elt F)),
    ternary main_v5 main_v6 main_v4 main_v7 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_c (constantI S_ 32 0#32),
    unary main_c main_v8 (broadcastInDim S1200000 ![] bcast_S_S1200000 : (⟨S_, .i32⟩ : BufTy).Contents (Elt F) → (⟨S1200000, .i32⟩ : BufTy).Contents (Elt F)),
    binary main_v1 main_v8 main_v9 (cmpi .slt : (⟨S1200000, .i32⟩ : BufTy).Contents (Elt F) → (⟨S1200000, .i32⟩ : BufTy).Contents (Elt F) → (⟨S1200000, .i1⟩ : BufTy).Contents (Elt F)),
    nullary main_c_1 (constantI S_ 32 100000#32),
    unary main_c_1 main_v10 (broadcastInDim S1200000 ![] bcast_S_S1200000 : (⟨S_, .i32⟩ : BufTy).Contents (Elt F) → (⟨S1200000, .i32⟩ : BufTy).Contents (Elt F)),
    binary main_v1 main_v10 main_v11 (addi : (⟨S1200000, .i32⟩ : BufTy).Contents (Elt F) → (⟨S1200000, .i32⟩ : BufTy).Contents (Elt F) → (⟨S1200000, .i32⟩ : BufTy).Contents (Elt F)),
    ternary main_v9 main_v11 main_v1 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v12 main_v13 (broadcastInDim S1200000x1 ![0] bcast_S1200000_S1200000x1_0 : (⟨S1200000, .i32⟩ : BufTy).Contents (Elt F) → (⟨S1200000x1, .i32⟩ : BufTy).Contents (Elt F)),
    binary main_arg0 main_v13 main_v14 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_2 (constant S_ .f32 0x00000000#32),
    unary main_cst_2 main_v15 (broadcastInDim S100000x64 ![] bcast_S_S100000x64 : (⟨S_, .f32⟩ : BufTy).Contents (Elt F) → (⟨S100000x64, .f32⟩ : BufTy).Contents (Elt F)),
    unary main_v3 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v7 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v17 main_v21 main_v22 (Host.divf : (⟨S100000x64, .f32⟩ : BufTy).Contents (Elt F) → (⟨S100000x64, .f32⟩ : BufTy).Contents (Elt F) → (⟨S100000x64, .f32⟩ : BufTy).Contents (Elt F)),
    binary main_arg0 main_arg2 main_v23 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v22 main_arg3 main_v24 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v23 main_v24 main_v25 (addf : (⟨S100000x16, .f32⟩ : BufTy).Contents (Elt F) → (⟨S100000x16, .f32⟩ : BufTy).Contents (Elt F) → (⟨S100000x16, .f32⟩ : BufTy).Contents (Elt F)),
    unary main_arg4 main_v26 (broadcastInDim S1x16 ![1] bcast_S16_S1x16_1 : (⟨S16, .f32⟩ : BufTy).Contents (Elt F) → (⟨S1x16, .f32⟩ : BufTy).Contents (Elt F)),
    unary main_v26 main_v27 (broadcastInDim S100000x16 ![0, 1] bcast_S1x16_S100000x16_0_1 : (⟨S1x16, .f32⟩ : BufTy).Contents (Elt F) → (⟨S100000x16, .f32⟩ : BufTy).Contents (Elt F)),
    binary main_v25 main_v27 main_v28 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v28) (TRef.of (T := ⟨S100000x16, .f32⟩) main_call0_v0) (TRef.of (T := ⟨S100000x16, .f32⟩) main_v29) maximumf ]

/-- The second layer: everything after the hidden layer, up to the result. -/
abbrev ops₂ : List (HloOp τ sig (Elt F)) :=
  [ nullary main_cst_4 (constant S_ .f32 0x3F800000#32),
    unary main_cst_4 main_v30 (broadcastInDim S1200000 ![] bcast_S_S1200000 : (⟨S_, .f32⟩ : BufTy).Contents (Elt F) → (⟨S1200000, .f32⟩ : BufTy).Contents (Elt F)),
    nullary main_cst_5 (constant S_ .f32 0x00000000#32),
    unary main_cst_5 main_v31 (broadcastInDim S100000 ![] bcast_S_S100000 : (⟨S_, .f32⟩ : BufTy).Contents (Elt F) → (⟨S100000, .f32⟩ : BufTy).Contents (Elt F)),
    unary main_v3 main_v32 (broadcastInDim S1200000x1 ![0] bcast_S1200000_S1200000x1_0 : (⟨S1200000, .i32⟩ : BufTy).Contents (Elt F) → (⟨S1200000x1, .i32⟩ : BufTy).Contents (Elt F)),
    ternary main_v31 main_v32 main_v30 main_v33 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_c_6 (constantI S_ 32 0#32),
    unary main_c_6 main_v34 (broadcastInDim S1200000 ![] bcast_S_S1200000 : (⟨S_, .i32⟩ : BufTy).Contents (Elt F) → (⟨S1200000, .i32⟩ : BufTy).Contents (Elt F)),
    binary main_v1 main_v34 main_v35 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v36 (broadcastInDim S1200000 ![] bcast_S_S1200000 : (⟨S_, .i32⟩ : BufTy).Contents (Elt F) → (⟨S1200000, .i32⟩ : BufTy).Contents (Elt F)),
    binary main_v1 main_v36 main_v37 (addi : (⟨S1200000, .i32⟩ : BufTy).Contents (Elt F) → (⟨S1200000, .i32⟩ : BufTy).Contents (Elt F) → (⟨S1200000, .i32⟩ : BufTy).Contents (Elt F)),
    ternary main_v35 main_v37 main_v1 main_v38 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v38 main_v39 (broadcastInDim S1200000x1 ![0] bcast_S1200000_S1200000x1_0 : (⟨S1200000, .i32⟩ : BufTy).Contents (Elt F) → (⟨S1200000x1, .i32⟩ : BufTy).Contents (Elt F)),
    binary main_v29 main_v39 main_v40 ((fun x i => Host.gather gather_S100000x16_S1200000x1_S1200000x16_1_0_n_n_0_1_116 x i) : (⟨S100000x16, .f32⟩ : BufTy).Contents (Elt F) → (⟨S1200000x1, .i32⟩ : BufTy).Contents (Elt F) → (⟨S1200000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v3 main_v42 (broadcastInDim S1200000x1 ![0] bcast_S1200000_S1200000x1_0 : (⟨S1200000, .i32⟩ : BufTy).Contents (Elt F) → (⟨S1200000x1, .i32⟩ : BufTy).Contents (Elt F)),
    ternary main_v41 main_v42 main_v40 main_v43 ((fun x i u => Host.scatterAdd scatter_S100000x16_S1200000x1_S1200000x16_1_0_0_1 x i u) : (⟨S100000x16, .f32⟩ : BufTy).Contents (Elt F) → (⟨S1200000x1, .i32⟩ : BufTy).Contents (Elt F) → (⟨S1200000x16, .f32⟩ : BufTy).Contents (Elt F) → (⟨S100000x16, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v33 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x16 ![0, 1] bcast_S100000x1_S100000x16_0_1 : (⟨S100000x1, .f32⟩ : BufTy).Contents (Elt F) → (⟨S100000x16, .f32⟩ : BufTy).Contents (Elt F)),
    binary main_v43 main_v47 main_v48 (Host.divf : (⟨S100000x16, .f32⟩ : BufTy).Contents (Elt F) → (⟨S100000x16, .f32⟩ : BufTy).Contents (Elt F) → (⟨S100000x16, .f32⟩ : BufTy).Contents (Elt F)),
    binary main_v29 main_arg5 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v48 main_arg6 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v49 main_v50 main_v51 (addf : (⟨S100000x40, .f32⟩ : BufTy).Contents (Elt F) → (⟨S100000x40, .f32⟩ : BufTy).Contents (Elt F) → (⟨S100000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S100000x40 ![0, 1] bcast_S1x40_S100000x40_0_1 : (⟨S1x40, .f32⟩ : BufTy).Contents (Elt F) → (⟨S100000x40, .f32⟩ : BufTy).Contents (Elt F)),
    binary main_v51 main_v53 main_v54 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

set_option maxRecDepth 8192 in
/-- The program's operations are the two halves in a row. -/
theorem ops_split : (ValueP.ops (F := F)) = ops₁ ++ ops₂ := rfl

set_option maxRecDepth 8192 in
/-- After the first half, from any contents `W`, the hidden layer's buffer holds the hidden-layer stage of `W`'s
    arguments. -/
theorem hidden_after (W : Valuation τ sig (Elt F)) :
    after (ops₁ (F := F)) W (Proc.devRef .tc main_v29)
      = val_main_v29 (F := F) (W (Proc.devRef .tc main_arg0)) (W (Proc.devRef .tc main_arg1)) (W (Proc.devRef .tc main_arg2))
          (W (Proc.devRef .tc main_arg3)) (W (Proc.devRef .tc main_arg4)) := by
  after_results_simp
  rfl

set_option maxRecDepth 8192 in
/-- After the first half the source indices' buffer holds their stage of the edge list. -/
theorem src_after (W : Valuation τ sig (Elt F)) :
    after (ops₁ (F := F)) W (Proc.devRef .tc main_v1) = val_main_v1 (F := F) (W (Proc.devRef .tc main_arg1)) := by
  after_results_simp
  rfl

set_option maxRecDepth 8192 in
/-- After the first half the destination indices' buffer holds their stage of the edge list. -/
theorem dst_after (W : Valuation τ sig (Elt F)) :
    after (ops₁ (F := F)) W (Proc.devRef .tc main_v3) = val_main_v3 (F := F) (W (Proc.devRef .tc main_arg1)) := by
  after_results_simp
  rfl

set_option maxRecDepth 8192 in
/-- No operation of the first half writes an argument: each argument's buffer comes through it as it was. -/
theorem args_after (W : Valuation τ sig (Elt F)) :
    after (ops₁ (F := F)) W (Proc.devRef .tc main_arg1) = W (Proc.devRef .tc main_arg1)
    ∧ after (ops₁ (F := F)) W (Proc.devRef .tc main_arg5) = W (Proc.devRef .tc main_arg5)
    ∧ after (ops₁ (F := F)) W (Proc.devRef .tc main_arg6) = W (Proc.devRef .tc main_arg6)
    ∧ after (ops₁ (F := F)) W (Proc.devRef .tc main_arg7) = W (Proc.devRef .tc main_arg7) := by
  refine ⟨?_, ?_, ?_, ?_⟩ <;> after_results_simp

/-- The second layer up to its linear part: the second neighbourhood mean and the two products, summed, with the bias. -/
abbrev ops₂a : List (HloOp τ sig (Elt F)) :=
  [ nullary main_cst_4 (constant S_ .f32 0x3F800000#32),
    unary main_cst_4 main_v30 (broadcastInDim S1200000 ![] bcast_S_S1200000 : (⟨S_, .f32⟩ : BufTy).Contents (Elt F) → (⟨S1200000, .f32⟩ : BufTy).Contents (Elt F)),
    nullary main_cst_5 (constant S_ .f32 0x00000000#32),
    unary main_cst_5 main_v31 (broadcastInDim S100000 ![] bcast_S_S100000 : (⟨S_, .f32⟩ : BufTy).Contents (Elt F) → (⟨S100000, .f32⟩ : BufTy).Contents (Elt F)),
    unary main_v3 main_v32 (broadcastInDim S1200000x1 ![0] bcast_S1200000_S1200000x1_0 : (⟨S1200000, .i32⟩ : BufTy).Contents (Elt F) → (⟨S1200000x1, .i32⟩ : BufTy).Contents (Elt F)),
    ternary main_v31 main_v32 main_v30 main_v33 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_c_6 (constantI S_ 32 0#32),
    unary main_c_6 main_v34 (broadcastInDim S1200000 ![] bcast_S_S1200000 : (⟨S_, .i32⟩ : BufTy).Contents (Elt F) → (⟨S1200000, .i32⟩ : BufTy).Contents (Elt F)),
    binary main_v1 main_v34 main_v35 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v36 (broadcastInDim S1200000 ![] bcast_S_S1200000 : (⟨S_, .i32⟩ : BufTy).Contents (Elt F) → (⟨S1200000, .i32⟩ : BufTy).Contents (Elt F)),
    binary main_v1 main_v36 main_v37 (addi : (⟨S1200000, .i32⟩ : BufTy).Contents (Elt F) → (⟨S1200000, .i32⟩ : BufTy).Contents (Elt F) → (⟨S1200000, .i32⟩ : BufTy).Contents (Elt F)),
    ternary main_v35 main_v37 main_v1 main_v38 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v38 main_v39 (broadcastInDim S1200000x1 ![0] bcast_S1200000_S1200000x1_0 : (⟨S1200000, .i32⟩ : BufTy).Contents (Elt F) → (⟨S1200000x1, .i32⟩ : BufTy).Contents (Elt F)),
    binary main_v29 main_v39 main_v40 ((fun x i => Host.gather gather_S100000x16_S1200000x1_S1200000x16_1_0_n_n_0_1_116 x i) : (⟨S100000x16, .f32⟩ : BufTy).Contents (Elt F) → (⟨S1200000x1, .i32⟩ : BufTy).Contents (Elt F) → (⟨S1200000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v3 main_v42 (broadcastInDim S1200000x1 ![0] bcast_S1200000_S1200000x1_0 : (⟨S1200000, .i32⟩ : BufTy).Contents (Elt F) → (⟨S1200000x1, .i32⟩ : BufTy).Contents (Elt F)),
    ternary main_v41 main_v42 main_v40 main_v43 ((fun x i u => Host.scatterAdd scatter_S100000x16_S1200000x1_S1200000x16_1_0_0_1 x i u) : (⟨S100000x16, .f32⟩ : BufTy).Contents (Elt F) → (⟨S1200000x1, .i32⟩ : BufTy).Contents (Elt F) → (⟨S1200000x16, .f32⟩ : BufTy).Contents (Elt F) → (⟨S100000x16, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v33 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x16 ![0, 1] bcast_S100000x1_S100000x16_0_1 : (⟨S100000x1, .f32⟩ : BufTy).Contents (Elt F) → (⟨S100000x16, .f32⟩ : BufTy).Contents (Elt F)),
    binary main_v43 main_v47 main_v48 (Host.divf : (⟨S100000x16, .f32⟩ : BufTy).Contents (Elt F) → (⟨S100000x16, .f32⟩ : BufTy).Contents (Elt F) → (⟨S100000x16, .f32⟩ : BufTy).Contents (Elt F)),
    binary main_v29 main_arg5 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v48 main_arg6 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v49 main_v50 main_v51 (addf : (⟨S100000x40, .f32⟩ : BufTy).Contents (Elt F) → (⟨S100000x40, .f32⟩ : BufTy).Contents (Elt F) → (⟨S100000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S100000x40 ![0, 1] bcast_S1x40_S100000x40_0_1 : (⟨S1x40, .f32⟩ : BufTy).Contents (Elt F) → (⟨S100000x40, .f32⟩ : BufTy).Contents (Elt F)),
    binary main_v51 main_v53 main_v54 (addf : (⟨S100000x40, .f32⟩ : BufTy).Contents (Elt F) → (⟨S100000x40, .f32⟩ : BufTy).Contents (Elt F) → (⟨S100000x40, .f32⟩ : BufTy).Contents (Elt F)) ]

/-- The log-softmax of the second layer's linear part, row by row. -/
abbrev ops₂b : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

set_option maxRecDepth 8192 in
/-- The second half is those two in a row. -/
theorem ops₂_split : (ops₂ (F := F)) = ops₂a ++ ops₂b := rfl

set_option maxRecDepth 8192 in
/-- The second layer's linear part. From contents `W'` that hold the hidden layer, the two index lists and the
    second layer's weights as stages of some argument arrays, the operations up to the bias leave the buffer of the
    linear part at ITS stage of those arrays. -/
theorem linear2_after (W' : Valuation τ sig (Elt F))
    (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F))
    (x5 x6 : (⟨S16x40, .f32⟩ : BufTy).Contents (Elt F)) (x7 : (⟨S40, .f32⟩ : BufTy).Contents (Elt F))
    (h29 : W' (Proc.devRef .tc main_v29) = val_main_v29 (F := F) x0 x1 x2 x3 x4)
    (h1 : W' (Proc.devRef .tc main_v1) = val_main_v1 (F := F) x1)
    (h3 : W' (Proc.devRef .tc main_v3) = val_main_v3 (F := F) x1)
    (h5 : W' (Proc.devRef .tc main_arg5) = x5) (h6 : W' (Proc.devRef .tc main_arg6) = x6)
    (h7 : W' (Proc.devRef .tc main_arg7) = x7) :
    after (ops₂a (F := F)) W' (Proc.devRef .tc main_v54) = val_main_v54 (F := F) x0 x1 x2 x3 x4 x5 x6 x7 := by
  after_results_simp
  rw [h29, h1, h3, h5, h6, h7]
  rfl

set_option maxRecDepth 8192 in
/-- The log-softmax. From contents that hold the linear part, the last operations leave the result buffer at the
    result's stage: the stage is those same operations of the linear part's stage. -/
theorem softmax_after (W'' : Valuation τ sig (Elt F))
    (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F))
    (x5 x6 : (⟨S16x40, .f32⟩ : BufTy).Contents (Elt F)) (x7 : (⟨S40, .f32⟩ : BufTy).Contents (Elt F))
    (h54 : W'' (Proc.devRef .tc main_v54) = val_main_v54 (F := F) x0 x1 x2 x3 x4 x5 x6 x7) :
    after (ops₂b (F := F)) W'' (Proc.devRef .tc main_v55) = val_main_v55 (F := F) x0 x1 x2 x3 x4 x5 x6 x7 := by
  after_results_simp
  rw [h54]
  -- between two of the callee's operations a value is written through a typed reference and read back through it
  simp only [TRef.ofBuf_toBuf]
  rfl

/-- THE RESULT. The fold of all 84 operations over the launch contents, read at the result buffer, is the last stage
    of the argument arrays as launched: the log-softmax of the linear part that the second layer forms from what the
    first half leaves, which is the hidden layer, the two index lists, and the arguments untouched. -/
theorem result_eq (m : (ℓ : Loc nD τ sig) → Buf (Elt F) ℓ) (c : Dev nD) :
    after (ValueP.ops (F := F)) (launchContents m c) (Proc.devRef .tc main_v55)
      = val_main_v55 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [ops_split, StableHlo.after_append, ops₂_split, StableHlo.after_append]
  obtain ⟨_, ha5, ha6, ha7⟩ := args_after (F := F) (launchContents m c)
  exact softmax_after _ _ _ _ _ _ _ _ _
    (linear2_after _ _ _ _ _ _ _ _ _ (hidden_after _) (src_after _) (dst_after _) ha5 ha6 ha7)

end Cert.ReferenceIdeal.Fold

end
-- ==== Proof.RefLayers.lean ====
/-
  The reference's two layers, read entry by entry.

  The reference forms each layer's linear part on the host exactly as the layer is defined: the product of
  the row-indexed operand with the self weights, plus the product of the neighbourhood mean with the
  neighbour weights, plus the bias laid out as a row and repeated down the rows. The host's product of an
  [M, K] by a [K, N] array is, at (p, q), the sum over the contracted coordinate of the products of the
  entries, so at row `P`, column `q` the host's term is the layer's `lin`; clipped at zero it is `hid`.
  All of it is stated for ARBITRARY operand arrays; the reference's own stages are then recognised as these
  terms of its own operands.
-/
import proofs.«153827_j40518721470745_1_alg».proof.Proof.RefShared
import proofs.«153827_j40518721470745_1_alg».proof.Proof.LibDot2
import Idealize.ShloMosaic.Lib.Pipeline.Value

noncomputable section

open scoped BigOperators

namespace Cert.ReferenceIdeal.Layers

open Cert.ReferenceIdeal Cert.ReferenceIdeal.Gen Cert.ReferenceIdeal.ReadP
open Idealize.ShloMosaic Idealize.ShloMosaic.TcCoe Idealize.ShloMosaic.ValueIdx Idealize.SL.Sem

section AnyInstance
variable {F : FTy → Type} [FloatOps F]

/-- The first layer as the host spells it, of arbitrary operands. -/
def layer1H (x a : (⟨S100000x64, .f32⟩ : BufTy).Contents (Elt F)) (ws wn : (⟨S64x16, .f32⟩ : BufTy).Contents (Elt F))
    (b : (⟨S16, .f32⟩ : BufTy).Contents (Elt F)) : (⟨S100000x16, .f32⟩ : BufTy).Contents (Elt F) :=
  maximumf
    (addf (addf (Host.dotGeneral dot_S100000x64_S64x16_S100000x16_1_0_0_1_n_n none x ws)
                (Host.dotGeneral dot_S100000x64_S64x16_S100000x16_1_0_0_1_n_n none a wn))
          (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The second layer's linear part as the host spells it, of arbitrary operands. -/
def lin2H (h a : (⟨S100000x16, .f32⟩ : BufTy).Contents (Elt F)) (ws wn : (⟨S16x40, .f32⟩ : BufTy).Contents (Elt F))
    (b : (⟨S40, .f32⟩ : BufTy).Contents (Elt F)) : (⟨S100000x40, .f32⟩ : BufTy).Contents (Elt F) :=
  addf (addf (Host.dotGeneral dot_S100000x16_S16x40_S100000x40_1_0_0_1_n_n none h ws)
             (Host.dotGeneral dot_S100000x16_S16x40_S100000x40_1_0_0_1_n_n none a wn))
       (broadcastInDim S100000x40 ![0, 1] bcast_S1x40_S100000x40_0_1 (broadcastInDim S1x40 ![1] bcast_S40_S1x40_1 b))

/-- The reference's hidden layer is that term of its own operands. -/
theorem v29_layer (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F)) :
    val_main_v29 (F := F) x0 x1 x2 x3 x4 = layer1H x0 (val_main_v22 (F := F) x0 x1) x2 x3 x4 := rfl

/-- The reference's second linear part is that term of its own operands. -/
theorem v54_lin (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F))
    (x5 x6 : (⟨S16x40, .f32⟩ : BufTy).Contents (Elt F)) (x7 : (⟨S40, .f32⟩ : BufTy).Contents (Elt F)) :
    val_main_v54 (F := F) x0 x1 x2 x3 x4 x5 x6 x7
      = lin2H (val_main_v29 (F := F) x0 x1 x2 x3 x4) (val_main_v48 (F := F) x0 x1 x2 x3 x4) x5 x6 x7 := rfl

end AnyInstance

/-! ### At the ideal instance, over arbitrary operands -/

/-- A length-16 bias laid out as a row and repeated down the rows, at row `P`, column `q`: the bias at `q`. -/
theorem bias16_apply (b : (⟨S16, .f32⟩ : BufTy).Contents (Elt Ideal)) (P : Fin 100000) (q : Fin 16) :
    broadcastInDim S100000x16 ![0, 1] bcast_S1x16_S100000x16_0_1 (broadcastInDim S1x16 ![1] bcast_S16_S1x16_1 b) (ix2 P q)
      = b (ix1 q) := by
  rw [broadcastInDim_apply _ bcast_S1x16_S100000x16_0_1 _ (ix2 P q) (ix2 (0 : Fin 1) q) (fun a => match a with
    | ⟨0, _⟩ => by show 0 = if (1 : Nat) = 1 then 0 else P.val; rw [if_pos rfl]
    | ⟨1, _⟩ => by show q.val = if (16 : Nat) = 1 then 0 else q.val; rw [if_neg (by decide)])]
  exact broadcastInDim_apply _ bcast_S16_S1x16_1 b (ix2 (0 : Fin 1) q) (ix1 q) (fun a => match a with
    | ⟨0, _⟩ => by show q.val = if (16 : Nat) = 1 then 0 else q.val; rw [if_neg (by decide)])

/-- The same for a length-40 bias. -/
theorem bias40_apply (b : (⟨S40, .f32⟩ : BufTy).Contents (Elt Ideal)) (P : Fin 100000) (q : Fin 40) :
    broadcastInDim S100000x40 ![0, 1] bcast_S1x40_S100000x40_0_1 (broadcastInDim S1x40 ![1] bcast_S40_S1x40_1 b) (ix2 P q)
      = b (ix1 q) := by
  rw [broadcastInDim_apply _ bcast_S1x40_S100000x40_0_1 _ (ix2 P q) (ix2 (0 : Fin 1) q) (fun a => match a with
    | ⟨0, _⟩ => by show 0 = if (1 : Nat) = 1 then 0 else P.val; rw [if_pos rfl]
    | ⟨1, _⟩ => by show q.val = if (40 : Nat) = 1 then 0 else q.val; rw [if_neg (by decide)])]
  exact broadcastInDim_apply _ bcast_S40_S1x40_1 b (ix2 (0 : Fin 1) q) (ix1 q) (fun a => match a with
    | ⟨0, _⟩ => by show q.val = if (40 : Nat) = 1 then 0 else q.val; rw [if_neg (by decide)])

/-- THE HOST'S FIRST LAYER at row `P`, column `q` is the layer `hid` there. -/
theorem layer1H_apply (x a : (⟨S100000x64, .f32⟩ : BufTy).Contents (Elt Ideal)) (ws wn : (⟨S64x16, .f32⟩ : BufTy).Contents (Elt Ideal))
    (b : (⟨S16, .f32⟩ : BufTy).Contents (Elt Ideal)) (P : Fin 100000) (q : Fin 16) :
    layer1H x a ws wn b (ix2 P q) = Cert.Sage.hid x a ws wn b P q := by
  have hmm : ∀ (l : FVec Ideal S100000x64 .f32) (r : FVec Ideal S64x16 .f32),
      Host.dotGeneral dot_S100000x64_S64x16_S100000x16_1_0_0_1_n_n none l r (ix2 P q) = ∑ k : Fin 64, l (ix2 P k) * r (ix2 k q) :=
    fun l r => Idealize.ShloMosaic.Dot2.host_dotGeneral_mm_apply dot_S100000x64_S64x16_S100000x16_1_0_0_1_n_n.wf none l r P q
  unfold layer1H Cert.Sage.hid Cert.Sage.lin
  rw [maximumf_apply, addf_apply, addf_apply, hmm, hmm, bias16_apply, broadcastInDim_scalar_apply, constant_apply,
    Ideal.ofBits_zero_f32]

/-- THE HOST'S SECOND LINEAR PART at row `P`, column `q` is the layer's `lin` there. -/
theorem lin2H_apply (h a : (⟨S100000x16, .f32⟩ : BufTy).Contents (Elt Ideal)) (ws wn : (⟨S16x40, .f32⟩ : BufTy).Contents (Elt Ideal))
    (b : (⟨S40, .f32⟩ : BufTy).Contents (Elt Ideal)) (P : Fin 100000) (q : Fin 40) :
    lin2H h a ws wn b (ix2 P q) = Cert.Sage.lin h a ws wn b P q := by
  have hmm : ∀ (l : FVec Ideal S100000x16 .f32) (r : FVec Ideal S16x40 .f32),
      Host.dotGeneral dot_S100000x16_S16x40_S100000x40_1_0_0_1_n_n none l r (ix2 P q) = ∑ k : Fin 16, l (ix2 P k) * r (ix2 k q) :=
    fun l r => Idealize.ShloMosaic.Dot2.host_dotGeneral_mm_apply dot_S100000x16_S16x40_S100000x40_1_0_0_1_n_n.wf none l r P q
  unfold lin2H Cert.Sage.lin
  rw [addf_apply, addf_apply, hmm, hmm, bias40_apply]

end Cert.ReferenceIdeal.Layers

end
-- ==== Proof.RefSoftmax.lean ====
/-
  The reference's log-softmax, read entry by entry.

  The reference takes each row's maximum by a host reduction from -∞ (and then, redundantly, the maximum of
  that with -∞ again), subtracts it, exponentiates, sums each row by a host reduction from zero, takes the
  logarithm and subtracts. At row `P`, column `q` that is the log-softmax of row `P` of its operand: the
  maximum of anything with the bottom is itself, and a sum from zero is the sum. Stated for an ARBITRARY
  operand; the reference's result is then recognised as this term of its second linear part.
-/
import proofs.«153827_j40518721470745_1_alg».proof.Proof.RefLayers
import Idealize.ShloMosaic.PureOps.Ideal.Laws

noncomputable section

open scoped BigOperators

namespace Cert.ReferenceIdeal.Softmax

open Cert.ReferenceIdeal Cert.ReferenceIdeal.Gen Cert.ReferenceIdeal.ReadP
open Idealize.ShloMosaic Idealize.ShloMosaic.TcCoe Idealize.ShloMosaic.ValueIdx Idealize.SL.Sem

section AnyInstance
variable {F : FTy → Type} [FloatOps F]

/-- A per-node array laid out as a column. -/
def col (y : (⟨S100000, .f32⟩ : BufTy).Contents (Elt F)) : (⟨S100000x1, .f32⟩ : BufTy).Contents (Elt F) :=
  broadcastInDim S100000x1 ![0] bcast_S100000_S100000x1_0 y
/-- A one-column array repeated along 40 columns. -/
def rep40 (X : (⟨S100000x1, .f32⟩ : BufTy).Contents (Elt F)) : (⟨S100000x40, .f32⟩ : BufTy).Contents (Elt F) :=
  broadcastInDim S100000x40 ![0, 1] bcast_S100000x1_S100000x40_0_1 X

/-- Each row's maximum as the host takes it: reduced from -∞, then the maximum of that with -∞. -/
def rowMaxH (L : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf L (constant S_ .f32 0xFF800000#32) reducesTo_S100000x40_S100000_d1 h_S_)

/-- The log-softmax as the host spells it, of an arbitrary operand. -/
def lsmH (L : (⟨S100000x40, .f32⟩ : BufTy).Contents (Elt F)) : (⟨S100000x40, .f32⟩ : BufTy).Contents (Elt F) :=
  subf (subf L (rep40 (col (rowMaxH L))))
    (rep40 (Host.log (col (Host.reduceAdd (Host.exp (subf L (rep40 (col (rowMaxH L))))) (constant S_ .f32 0x00000000#32)
      reducesTo_S100000x40_S100000_d1 h_S_))))

/-- The reference's result is that term of its second linear part. -/
theorem v55_lsm (x0 : (⟨S100000x64, .f32⟩ : BufTy).Contents (Elt F)) (x1 : (⟨S2x1200000, .i32⟩ : BufTy).Contents (Elt F))
    (x2 x3 : (⟨S64x16, .f32⟩ : BufTy).Contents (Elt F)) (x4 : (⟨S16, .f32⟩ : BufTy).Contents (Elt F))
    (x5 x6 : (⟨S16x40, .f32⟩ : BufTy).Contents (Elt F)) (x7 : (⟨S40, .f32⟩ : BufTy).Contents (Elt F)) :
    val_main_v55 (F := F) x0 x1 x2 x3 x4 x5 x6 x7 = lsmH (val_main_v54 (F := F) x0 x1 x2 x3 x4 x5 x6 x7) := rfl

end AnyInstance

/-! ### At the ideal instance, over an arbitrary operand -/

/-- The word of -∞ denotes the bottom of the extended reals. -/
theorem ofBits_ninf : Ideal.ofBits .f32 0xFF800000#32 = ⊥ := by
  simp [Ideal.ofBits, Ideal.ieee]

/-- A one-column array repeated along forty columns, read at row `P`, column `q`: the column's entry at row `P`. -/
theorem rep40_apply (X : (⟨S100000x1, .f32⟩ : BufTy).Contents (Elt Ideal)) (P : Fin 100000) (q : Fin 40) :
    rep40 X (ix2 P q) = X (ix2 P (0 : Fin 1)) :=
  broadcastInDim_apply _ bcast_S100000x1_S100000x40_0_1 X (ix2 P q) (ix2 P (0 : Fin 1)) (fun a => match a with
    | ⟨0, _⟩ => by show P.val = if (100000 : Nat) = 1 then 0 else P.val; rw [if_neg (by decide)]
    | ⟨1, _⟩ => by show 0 = if (1 : Nat) = 1 then 0 else q.val; rw [if_pos rfl])

/-- A per-node array laid out as a column, read at row `P`: the array at `P`. -/
theorem col_apply (y : (⟨S100000, .f32⟩ : BufTy).Contents (Elt Ideal)) (P : Fin 100000) :
    col y (ix2 P (0 : Fin 1)) = y (ix1 P) :=
  broadcastInDim_apply _ bcast_S100000_S100000x1_0 y (ix2 P (0 : Fin 1)) (ix1 P) (fun a => match a with
    | ⟨0, _⟩ => by show P.val = if (100000 : Nat) = 1 then 0 else P.val; rw [if_neg (by decide)])

/-- The host's row maximum at node `P`: the fold of `max` from the bottom over the row's forty entries. -/
theorem rowMaxH_apply (L : (⟨S100000x40, .f32⟩ : BufTy).Contents (Elt Ideal)) (P : Fin 100000) :
    rowMaxH L (ix1 P) = Finset.univ.fold max ⊥ (fun k : Fin 40 => L (ix2 P k)) := by
  unfold rowMaxH
  rw [maximumf_apply, broadcastInDim_scalar_apply, constant_apply, ofBits_ninf]
  -- the host's reduction over one axis is the fold, from the initial value, over that axis's coordinates
  refine Eq.trans (congrArg (fun z : EReal => max ⊥ z)
    (Host.reduce_eq_fold_single (FloatOps.maximumf (F := Ideal) (φ := .f32)) L (constant (F := Ideal) S_ .f32 0xFF800000#32)
      reducesTo_S100000x40_S100000_d1 (by decide) h_S_ (ix1 P))) ?_
  -- the maximum of the bottom with anything is that thing; the initial value is the bottom
  rw [max_eq_right bot_le, constant_apply, ofBits_ninf]
  -- and the entry the reduction reads at position `k` is (P, k): coordinate by coordinate
  exact congrArg (fun f => Finset.univ.fold max ⊥ f) (funext fun k => congrArg L (funext fun a => Fin.ext (by
    match a with
    | ⟨0, _⟩ => rfl
    | ⟨1, _⟩ => rfl)))

/-- The host's row sum from zero at node `P`: the sum of the row's forty entries. -/
theorem rowSumH_apply (E : FVec Ideal S100000x40 .f32) (P : Fin 100000) :
    Host.reduceAdd E (constant (F := Ideal) S_ .f32 0x00000000#32) reducesTo_S100000x40_S100000_d1 h_S_ (ix1 P)
      = ∑ k : Fin 40, E (ix2 P k) := by
  rw [hostReduceAdd_apply, Ideal.hostReduceAdd_single reducesTo_S100000x40_S100000_d1 (by decide), constant_apply,
    Ideal.ofBits_zero_f32, zero_add]
  refine Finset.sum_congr rfl fun k _ => congrArg E (funext fun a => Fin.ext ?_)
  match a with
  | ⟨0, _⟩ => rfl
  | ⟨1, _⟩ => rfl

/-- THE HOST'S LOG-SOFTMAX at row `P`, column `q` is the log-softmax of row `P` of its operand. -/
theorem lsmH_apply (L : (⟨S100000x40, .f32⟩ : BufTy).Contents (Elt Ideal)) (P : Fin 100000) (q : Fin 40) :
    lsmH L (ix2 P q) = Cert.Sage.lsm (fun a b => L (ix2 a b)) P q := by
  unfold lsmH Cert.Sage.lsm
  simp only [subf_apply, rep40_apply, col_apply, Host.log, Ideal.hostUnary_log_def]
  rw [rowMaxH_apply L P, rowSumH_apply _ P]
  simp only [Host.exp, subf_apply, rep40_apply, col_apply, Ideal.hostUnary_exp_def]
  rw [rowMaxH_apply L P]

end Cert.ReferenceIdeal.Softmax

end
-- ==== Proof.Join.lean ====
/-
  The two programs compute one array.

  Fed the same eight arguments, the kernel program's result (the row-wise log-softmax of the second layer's
  linear part of its hidden layer and that layer's neighbourhood mean, each mean in the kernel's spelling) is
  the reference's result. The hidden layers agree because the first neighbourhood means do (the one law that
  joins the two spellings); given that, the second means agree by the same law; so the second linear parts
  agree entry by entry, and the log-softmax of a row depends on that row alone.
-/
import proofs.«153827_j40518721470745_1_alg».proof.Proof.RefSoftmax

noncomputable section

namespace Cert.ReferenceIdeal.Join

open Cert.ReferenceIdeal Cert.ReferenceIdeal.Gen Cert.ReferenceIdeal.ReadP
open Cert.ReferenceIdeal.Shared Cert.ReferenceIdeal.Layers Cert.ReferenceIdeal.Softmax
open Idealize.ShloMosaic Idealize.ShloMosaic.TcCoe Idealize.ShloMosaic.ValueIdx Idealize.SL.Sem

variable (x0 : (⟨S100000x64, .f32⟩ : BufTy).Contents (Elt Ideal)) (x1 : (⟨S2x1200000, .i32⟩ : BufTy).Contents (Elt Ideal))
  (x2 x3 : (⟨S64x16, .f32⟩ : BufTy).Contents (Elt Ideal)) (x4 : (⟨S16, .f32⟩ : BufTy).Contents (Elt Ideal))
  (x5 x6 : (⟨S16x40, .f32⟩ : BufTy).Contents (Elt Ideal)) (x7 : (⟨S40, .f32⟩ : BufTy).Contents (Elt Ideal))

/-- The hidden layer as the kernel's program forms it, of the arguments. -/
def hiddenK : S100000x16.Idx → EReal := fun i => Cert.Sage.hid x0 (mean1K x0 x1) x2 x3 x4 (i 0) (i 1)

/-- THE HIDDEN LAYERS AGREE: the kernel program's is the reference's. -/
theorem hidden_eq : hiddenK x0 x1 x2 x3 x4 = val_main_v29 (F := Ideal) x0 x1 x2 x3 x4 := by
  funext i
  obtain ⟨P, q, rfl⟩ : ∃ (P : Fin 100000) (q : Fin 16), i = ix2 P q := ⟨i 0, i 1, eq_ix2 i⟩
  rw [v29_layer, layer1H_apply, ← mean1_eq]
  rfl

/-- The kernel program's result, of the arguments. -/
def resultK : S100000x40.Idx → EReal := fun i =>
  Cert.Sage.lsm (Cert.Sage.lin (hiddenK x0 x1 x2 x3 x4)
    (mean2K (hiddenK x0 x1 x2 x3 x4) (val_main_v1 (F := Ideal) x1) (val_main_v3 (F := Ideal) x1) (recip (F := Ideal) x1)) x5 x6 x7) (i 0) (i 1)

/-- THE RESULTS AGREE: the kernel program's is the reference's. -/
theorem result_eq : resultK x0 x1 x2 x3 x4 x5 x6 x7 = val_main_v55 (F := Ideal) x0 x1 x2 x3 x4 x5 x6 x7 := by
  funext i
  obtain ⟨P, q, rfl⟩ : ∃ (P : Fin 100000) (q : Fin 40), i = ix2 P q := ⟨i 0, i 1, eq_ix2 i⟩
  rw [v55_lsm, lsmH_apply, v54_lin, v48_def, ← hidden_eq, ← mean2_eq]
  -- both sides are the log-softmax of row P; the rows agree entry by entry, each entry being the layer's linear part
  exact Cert.Sage.lsm_rows (fun a => a) _ _ (fun a b => (lin2H_apply _ _ x5 x6 x7 a b).symm) P q

end Cert.ReferenceIdeal.Join

end
-- ==== Proof.lean ====
/-
  A two-layer graph network, tiled over its nodes, against its plain formulation.

  Each layer takes node features `x`, averages the source rows of `x` onto each destination node of an edge
  list (the average being the sum divided by `max (deg, 1)`, `deg` the node's number of incoming edges), and
  forms `x · W_self + mean · W_neigh + b`. The first layer clips the result at zero from below; the second takes
  each row's log-softmax.

  The kernel's program forms the sums and the degree count on the host and scales by the RECIPROCAL
  `1 / max (deg, 1)`; the reference divides. Since `max (deg, 1)` is at least one it is not zero, and off zero
  the quotient of extended reals is the product with the inverse, infinities included: the two means are one
  array, with no appeal to the inputs being finite. The kernel then computes each layer ten thousand rows at a
  time; a row of a layer reads that row of the features and of the mean and nothing else of them, so the ten
  blocks are the blocks of the one array the reference computes all at once. A matrix product accumulated into
  zero and the host's general dot product are the same sum at the ideal instance, a change of float format is
  the identity there, and the maximum of anything with -∞ is itself.

  The modules: the layers as functions of their operands, for any number of rows; what each kernel body
  stores at an entry; what each pallas_call leaves in its result array; the host stretches between them; the
  kernel program's result as a function of its arguments; the reference's run, its result read out of the
  fold of its operations in three stretches, and its layers and log-softmax read entry by entry; the join.
-/
import proofs.«153827_j40518721470745_1_alg».proof.Defs
import proofs.«153827_j40518721470745_1_alg».proof.Proof.Gen.Kernel
import proofs.«153827_j40518721470745_1_alg».proof.Proof.Gen.Kernel.Skeleton
import proofs.«153827_j40518721470745_1_alg».proof.Proof.Gen.Kernel.Launch
import proofs.«153827_j40518721470745_1_alg».proof.Proof.Gen.Kernel.Points
import proofs.«153827_j40518721470745_1_alg».proof.Proof.Gen.Kernel.Frame
import proofs.«153827_j40518721470745_1_alg».proof.Proof.Gen.KernelIdeal
import proofs.«153827_j40518721470745_1_alg».proof.Proof.Gen.KernelIdeal.Skeleton
import proofs.«153827_j40518721470745_1_alg».proof.Proof.Gen.KernelIdeal.Launch
import proofs.«153827_j40518721470745_1_alg».proof.Proof.Gen.KernelIdeal.Points
import proofs.«153827_j40518721470745_1_alg».proof.Proof.Gen.KernelIdeal.Frame
import proofs.«153827_j40518721470745_1_alg».proof.Proof.Gen.ReferenceIdeal
import proofs.«153827_j40518721470745_1_alg».proof.Proof.Gen.Pre_finite_inputs
import proofs.«153827_j40518721470745_1_alg».proof.Proof.LaunchV
import proofs.«153827_j40518721470745_1_alg».proof.Proof.Walk
import proofs.«153827_j40518721470745_1_alg».proof.Proof.RefFold
import proofs.«153827_j40518721470745_1_alg».proof.Proof.Join
import Idealize.ShloMosaic.Adequacy
import Idealize.ShloMosaic.Init

noncomputable section

namespace Cert.Proof

open Idealize.ShloMosaic Idealize.SL.Sem

/-- The word-level kernel program runs, and its arguments end as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with what it says of the result left out. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The kernel program's result as the walk through it names it is the function of the arguments the join is stated for. -/
theorem walk_is_join (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v39)
      = Cert.ReferenceIdeal.Join.resultK
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) :=
  Cert.KernelIdeal.Walk.result m ρ c

/-- From memories that agree on the arguments both idealized programs run and end with one result: the reference's last
    stage of the arguments, which the kernel program's result is by the join. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel program: its run with the result named, the walk through it, the join
    refine (θ_run Cert.KernelIdeal.defs _ _).mono (fun _ h c => ⟨?_, (h c).2⟩) (Cert.KernelIdeal.Gen.run_value (F := Ideal) m ρ)
    exact ((h c).1.trans (walk_is_join m ρ c)).trans (Cert.ReferenceIdeal.Join.result_eq _ _ _ _ _ _ _ _)
  · -- the reference: its run, the fold read out, and the agreement of the two memories on the arguments
    refine (θ_run Cert.ReferenceIdeal.defs _ _).mono (fun _ h c => ⟨?_, (h c).2⟩) (Cert.ReferenceIdeal.ValueP.run (F := Ideal) m' ρ')
    obtain ⟨a0, a1, a2, a3, a4, a5, a6, a7⟩ := hagree c
    rw [(h c).1, Cert.ReferenceIdeal.Fold.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
